-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8 : S_.BroadcastsInDim S1024x8 (![] : Fin 0 → Fin S1024x8.rank)
  reducesTo_S1024x8_S_d0_1 : S1024x8.ReducesTo [0, 1] S_
  bcast_S_S64x1024x1024 : S_.BroadcastsInDim S64x1024x1024 (![] : Fin 0 → Fin S64x1024x1024.rank)
  reducesTo_S64x1024x1024_S_d0_1_2 : S64x1024x1024.ReducesTo [0, 1, 2] S_
  bcast_S_S64x1024x512 : S_.BroadcastsInDim S64x1024x512 (![] : Fin 0 → Fin S64x1024x512.rank)
  reducesTo_S64x1024x512_S_d0_1_2 : S64x1024x512.ReducesTo [0, 1, 2] S_

variable [Facts]

def fn_part1 {F : FTy → Type} [FloatOps F] (main_v13 : IVec S_ 1) (main_v16 : IVec S64x1024x512 1) : IVec S_ 1 :=
  let main_c_5 : IVec S_ 1 := constantI S_ 1 1#1
  let main_v17 : IVec S_ 1 := (fun x v => Host.reduce IntOp.andi x v reducesTo_S64x1024x512_S_d0_1_2 h_S_) main_v16 main_c_5
  let main_v18 : IVec S_ 1 := andi main_v13 main_v17
  main_v18

def fn {F : FTy → Type} [FloatOps F] (main_arg0 : FVec F S1024x1024 .f32) (main_arg1 : IVec S1024x8 32) (main_arg2 : FVec F S1024x8 .f32) (main_arg3 : FVec F S64x1024x1024 .f32) (main_arg4 : FVec F S64x1024x512 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  let main_v9 : FVec F S64x1024x1024 .f32 := Host.absf main_arg3
  let main_cst_2 : FVec F S_ .f32 := constant S_ .f32 0x7F800000#32
  let main_v10 : FVec F S64x1024x1024 .f32 := broadcastInDim S64x1024x1024 ![] bcast_S_S64x1024x1024 main_cst_2
  let main_v11 : IVec S64x1024x1024 1 := cmpf .olt main_v9 main_v10
  let main_c_3 : IVec S_ 1 := constantI S_ 1 1#1
  let main_v12 : IVec S_ 1 := (fun x v => Host.reduce IntOp.andi x v reducesTo_S64x1024x1024_S_d0_1_2 h_S_) main_v11 main_c_3
  let main_v13 : IVec S_ 1 := andi main_v8 main_v12
  let main_v14 : FVec F S64x1024x512 .f32 := Host.absf main_arg4
  let main_cst_4 : FVec F S_ .f32 := constant S_ .f32 0x7F800000#32
  let main_v15 : FVec F S64x1024x512 .f32 := broadcastInDim S64x1024x512 ![] bcast_S_S64x1024x512 main_cst_4
  let main_v16 : IVec S64x1024x512 1 := cmpf .olt main_v14 main_v15
  fn_part1 (F := F) main_v13 main_v16
-- ==== Kernel.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1024x8x1024 : Shape := ⟨3, ![1024, 8, 1024]⟩
abbrev S8192x1024 : Shape := ⟨2, ![8192, 1024]⟩
abbrev S32768x1024 : Shape := ⟨2, ![32768, 1024]⟩
abbrev S64x512x1024 : Shape := ⟨3, ![64, 512, 1024]⟩
abbrev S1x512x1024 : Shape := ⟨3, ![1, 512, 1024]⟩
abbrev S1x1024x1024 : Shape := ⟨3, ![1, 1024, 1024]⟩
abbrev S1x1024x512 : Shape := ⟨3, ![1, 1024, 512]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 80
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024x8, .i32⟩
  | .hbm, ⟨2, _⟩ => ⟨S1024x8, .f32⟩
  | .hbm, ⟨3, _⟩ => ⟨S64x1024x1024, .f32⟩
  | .hbm, ⟨4, _⟩ => ⟨S64x1024x512, .f32⟩
  | .hbm, ⟨5, _⟩ => ⟨S8192, .i32⟩
  | .hbm, ⟨6, _⟩ => ⟨S8192x1, .i32⟩
  | .hbm, ⟨7, _⟩ => ⟨S1x64, .i32⟩
  | .hbm, ⟨8, _⟩ => ⟨S8192x64, .i32⟩
  | .hbm, ⟨9, _⟩ => ⟨S8192x64, .i32⟩
  | .hbm, ⟨10, _⟩ => ⟨S8192x64, .i1⟩
  | .hbm, ⟨11, _⟩ => ⟨S8192x64, .i32⟩
  | .hbm, ⟨12, _⟩ => ⟨S_, .i32⟩
  | .hbm, ⟨13, _⟩ => ⟨S_, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S1024x8x1024, .f32⟩
  | .hbm, ⟨50, _⟩ => ⟨S8192x1024, .f32⟩
  | .hbm, ⟨51, _⟩ => ⟨S_, .f32⟩
  | .hbm, ⟨52, _⟩ => ⟨S32768x1024, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S32768x1024, .f32⟩
  | .hbm, ⟨62, _⟩ => ⟨S64x512x1024, .f32⟩
  | .hbm, ⟨63, _⟩ => ⟨S64x512x1024, .f32⟩
  | .hbm, ⟨64, _⟩ => ⟨S32768x1024, .f32⟩
  | .hbm, ⟨65, _⟩ => ⟨S_, .i32⟩
  | .hbm, ⟨66, _⟩ => ⟨S8192, .i32⟩
  | .hbm, ⟨67, _⟩ => ⟨S8192, .i1⟩
  | .hbm, ⟨68, _⟩ => ⟨S_, .i32⟩
  | .hbm, ⟨69, _⟩ => ⟨S8192, .i32⟩
  | .hbm, ⟨70, _⟩ => ⟨S8192, .i32⟩
  | .hbm, ⟨71, _⟩ => ⟨S8192, .i32⟩
  | .hbm, ⟨72, _⟩ => ⟨S8192x1, .i32⟩
  | .hbm, ⟨73, _⟩ => ⟨S8192x1024, .f32⟩
  | .hbm, ⟨74, _⟩ => ⟨S8192x1, .f32⟩
  | .hbm, ⟨75, _⟩ => ⟨S8192x1024, .f32⟩
  | .hbm, ⟨76, _⟩ => ⟨S8192x1024, .f32⟩
  | .hbm, ⟨77, _⟩ => ⟨S1024x8x1024, .f32⟩
  | .hbm, ⟨78, _⟩ => ⟨S_, .f32⟩
  | .hbm, ⟨79, _⟩ => ⟨S1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_call1_call0_c : Ref sig .tc := ⟨.hbm, 12, rfl⟩
abbrev main_call1_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v6 : Ref sig .tc := ⟨.hbm, 40, rfl⟩
abbrev main_v7 : Ref sig .tc := ⟨.hbm, 41, rfl⟩
abbrev main_c_0 : Ref sig .tc := ⟨.hbm, 42, rfl⟩
abbrev main_v8 : Ref sig .tc := ⟨.hbm, 43, rfl⟩
abbrev main_v9 : Ref sig .tc := ⟨.hbm, 44, rfl⟩
abbrev main_c_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_c_4 : Ref sig .tc := ⟨.hbm, 65, rfl⟩
abbrev main_v26 : Ref sig .tc := ⟨.hbm, 66, rfl⟩
abbrev main_v27 : Ref sig .tc := ⟨.hbm, 67, rfl⟩
abbrev main_c_5 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_6 : Ref sig .tc := ⟨.hbm, 78, rfl⟩
abbrev main_v37 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024x8_S8192 : S1024x8.ShapeCasts S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  bcast_S_S8192x64 : S_.BroadcastsInDim S8192x64 (![] : Fin 0 → Fin S8192x64.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S1024x1024_S1024x8x1024_0_2 : S1024x1024.BroadcastsInDim S1024x8x1024 (![0, 2] : Fin 2 → Fin S1024x8x1024.rank)
  shapeCasts_S1024x8x1024_S8192x1024 : S1024x8x1024.ShapeCasts S8192x1024
  bcast_S_S32768x1024 : S_.BroadcastsInDim S32768x1024 (![] : Fin 0 → Fin S32768x1024.rank)
  shapeCasts_S32768x1024_S64x512x1024 : S32768x1024.ShapeCasts S64x512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  transposes_S1024x1024_p1_0_S1024x1024 : S1024x1024.Transposes [1, 0] S1024x1024
  slices_S512x1024_o0_0_S512x512 : S512x1024.Slices ![0, 0] S512x512
  slices_S512x1024_o0_512_S512x512 : S512x1024.Slices ![0, 512] S512x512
  transposes_S1024x512_p1_0_S512x1024 : S1024x512.Transposes [1, 0] S512x1024
  shapeCasts_S512x1024_S1x512x1024 : S512x1024.ShapeCasts S1x512x1024
  shapeCasts_S64x512x1024_S32768x1024 : S64x512x1024.ShapeCasts S32768x1024
  shapeCasts_S1024x8_S8192x1 : S1024x8.ShapeCasts S8192x1
  bcast_S8192x1_S8192x1024_0_1 : S8192x1.BroadcastsInDim S8192x1024 (![0, 1] : Fin 2 → Fin S8192x1024.rank)
  shapeCasts_S8192x1024_S1024x8x1024 : S8192x1024.ShapeCasts S1024x8x1024
  reducesTo_S1024x8x1024_S1024x1024_d1 : S1024x8x1024.ReducesTo [1] S1024x1024
  gather_S8192x64_S8192x1x1_S8192x1_n_1_0_0_1_2_11_wf : GatherDims.WF S8192x64 S8192x1x1 S8192x1 [] [1] [0] [1] [0] 2 ![1, 1]
  scatter_S32768x1024_S8192x1_S8192x1024_1_0_0_1_wf : ScatterDims.WF S32768x1024 S8192x1 S8192x1024 [1] [0] [0] 1
  dot_S512x1024_S1024x1024_S512x1024_1_0_0_1_n_n_wf : DotDims.WF S512x1024 S1024x1024 S512x1024 [1] [0] [0] [1] [] []
  dot_S512x512_S512x1024_S512x1024_1_0_0_1_n_n_wf : DotDims.WF S512x512 S512x1024 S512x1024 [1] [0] [0] [1] [] []
  gather_S32768x1024_S8192x1_S8192x1024_1_0_n_n_0_1_11024_wf : GatherDims.WF S32768x1024 S8192x1 S8192x1024 [1] [0] [] [0] [] 1 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x1024.size a
  hwx0_1 : ∀ i : grid0.Coords, EltTy.bits .f32 = 32 ∨ (Rect.block (s := S64x1024x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S64x1024x512.size a
  hwx0_2 : ∀ i : grid0.Coords, EltTy.bits .f32 = 32 ∨ (Rect.block (s := S64x1024x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf
def scatter_S32768x1024_S8192x1_S8192x1024_1_0_0_1 : ScatterDims S32768x1024 S8192x1 S8192x1024 where
  updateWindowDims := [1]
  insertedWindowDims := [0]
  scatterDimsToOperandDims := [0]
  indexVectorDim := 1
  wf := scatter_S32768x1024_S8192x1_S8192x1024_1_0_0_1_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf

abbrev win0_0 : Pipeline.Window sig grid0 :=
  Pipeline.Window.ofSpec (Memref.whole main_v23) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x1024 : Shape := ⟨2, ![1024, 1024]⟩
abbrev S1024x8 : Shape := ⟨2, ![1024, 8]⟩
abbrev S64x1024x1024 : Shape := ⟨3, ![64, 1024, 1024]⟩
abbrev S64x1024x512 : Shape := ⟨3, ![64, 1024, 512]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S1024x8x1024 : Shape := ⟨3, ![1024, 8, 1024]⟩
abbrev S8192x1024 : Shape := ⟨2, ![8192, 1024]⟩
abbrev S32768x1024 : Shape := ⟨2, ![32768, 1024]⟩
abbrev S64x512x1024 : Shape := ⟨3, ![64, 512, 1024]⟩
abbrev S64x512x512 : Shape := ⟨3, ![64, 512, 512]⟩

abbrev nBuf : Space → Nat
  | .hbm => 93
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x8, .i32⟩
  | .hbm, ⟨2, _⟩ => ⟨S1024x8, .f32⟩
  | .hbm, ⟨3, _⟩ => ⟨S64x1024x1024, .f32⟩
  | .hbm, ⟨4, _⟩ => ⟨S64x1024x512, .f32⟩
  | .hbm, ⟨5, _⟩ => ⟨S8192, .i32⟩
  | .hbm, ⟨6, _⟩ => ⟨S8192x1, .i32⟩
  | .hbm, ⟨7, _⟩ => ⟨S1x64, .i32⟩
  | .hbm, ⟨8, _⟩ => ⟨S8192x64, .i32⟩
  | .hbm, ⟨9, _⟩ => ⟨S8192x64, .i32⟩
  | .hbm, ⟨10, _⟩ => ⟨S8192x64, .i1⟩
  | .hbm, ⟨11, _⟩ => ⟨S8192x64, .i32⟩
  | .hbm, ⟨12, _⟩ => ⟨S_, .i32⟩
  | .hbm, ⟨13, _⟩ => ⟨S_, .i32⟩
  | .hbm, ⟨14, _⟩ => ⟨S8192x64, .i32⟩
  | .hbm, ⟨15, _⟩ => ⟨S_, .i32⟩
  | .hbm, ⟨16, _⟩ => ⟨S8192x64, .i32⟩
  | .hbm, ⟨17, _⟩ => ⟨S8192x64, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S1024x8x1024, .f32⟩
  | .hbm, ⟨50, _⟩ => ⟨S8192x1024, .f32⟩
  | .hbm, ⟨51, _⟩ => ⟨S_, .f32⟩
  | .hbm, ⟨52, _⟩ => ⟨S32768x1024, .f32⟩
  | .hbm, ⟨53, _⟩ => ⟨S_, .i32⟩
  | .hbm, ⟨54, _⟩ => ⟨S8192, .i32⟩
  | .hbm, ⟨55, _⟩ => ⟨S8192, .i1⟩
  | .hbm, ⟨56, _⟩ => ⟨S_, .i32⟩
  | .hbm, ⟨57, _⟩ => ⟨S8192, .i32⟩
  | .hbm, ⟨58, _⟩ => ⟨S8192, .i32⟩
  | .hbm, ⟨59, _⟩ => ⟨S8192, .i32⟩
  | .hbm, ⟨60, _⟩ => ⟨S8192x1, .i32⟩
  | .hbm, ⟨61, _⟩ => ⟨S32768x1024, .f32⟩
  | .hbm, ⟨62, _⟩ => ⟨S64x512x1024, .f32⟩
  | .hbm, ⟨63, _⟩ => ⟨S64x512x1024, .f32⟩
  | .hbm, ⟨64, _⟩ => ⟨S64x512x512, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S_, .f32⟩
  | .hbm, ⟨69, _⟩ => ⟨S64x512x512, .f32⟩
  | .hbm, ⟨70, _⟩ => ⟨S64x512x512, .f32⟩
  | .hbm, ⟨71, _⟩ => ⟨S_, .f32⟩
  | .hbm, ⟨72, _⟩ => ⟨S64x512x512, .f32⟩
  | .hbm, ⟨73, _⟩ => ⟨S64x512x512, .f32⟩
  | .hbm, ⟨74, _⟩ => ⟨S64x512x512, .f32⟩
  | .hbm, ⟨75, _⟩ => ⟨S64x512x512, .f32⟩
  | .hbm, ⟨76, _⟩ => ⟨S64x512x1024, .f32⟩
  | .hbm, ⟨77, _⟩ => ⟨S32768x1024, .f32⟩
  | .hbm, ⟨78, _⟩ => ⟨S_, .i32⟩
  | .hbm, ⟨79, _⟩ => ⟨S8192, .i32⟩
  | .hbm, ⟨80, _⟩ => ⟨S8192, .i1⟩
  | .hbm, ⟨81, _⟩ => ⟨S_, .i32⟩
  | .hbm, ⟨82, _⟩ => ⟨S8192, .i32⟩
  | .hbm, ⟨83, _⟩ => ⟨S8192, .i32⟩
  | .hbm, ⟨84, _⟩ => ⟨S8192, .i32⟩
  | .hbm, ⟨85, _⟩ => ⟨S8192x1, .i32⟩
  | .hbm, ⟨86, _⟩ => ⟨S8192x1024, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S1024x8x1024, .f32⟩
  | .hbm, ⟨91, _⟩ => ⟨S_, .f32⟩
  | .hbm, ⟨92, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_call1_call0_c : Ref sig .tc := ⟨.hbm, 12, rfl⟩
abbrev main_call1_call0_v0 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v6 : Ref sig .tc := ⟨.hbm, 40, rfl⟩
abbrev main_v7 : Ref sig .tc := ⟨.hbm, 41, rfl⟩
abbrev main_c_0 : Ref sig .tc := ⟨.hbm, 42, rfl⟩
abbrev main_v8 : Ref sig .tc := ⟨.hbm, 43, rfl⟩
abbrev main_v9 : Ref sig .tc := ⟨.hbm, 44, rfl⟩
abbrev main_c_1 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_c_2 : Ref sig .tc := ⟨.hbm, 53, rfl⟩
abbrev main_v16 : Ref sig .tc := ⟨.hbm, 54, rfl⟩
abbrev main_v17 : Ref sig .tc := ⟨.hbm, 55, rfl⟩
abbrev main_c_3 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_call3_v0 : Ref sig .tc := ⟨.hbm, 66, rfl⟩
abbrev main_call3_v1 : Ref sig .tc := ⟨.hbm, 67, rfl⟩
abbrev main_call3_cst : Ref sig .tc := ⟨.hbm, 68, rfl⟩
abbrev main_call3_v2 : Ref sig .tc := ⟨.hbm, 69, rfl⟩
abbrev main_call3_v3 : Ref sig .tc := ⟨.hbm, 70, rfl⟩
abbrev main_call3_cst_0 : Ref sig .tc := ⟨.hbm, 71, rfl⟩
abbrev main_call3_v4 : Ref sig .tc := ⟨.hbm, 72, rfl⟩
abbrev main_call3_v5 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_c_4 : Ref sig .tc := ⟨.hbm, 78, rfl⟩
abbrev main_v31 : Ref sig .tc := ⟨.hbm, 79, rfl⟩
abbrev main_v32 : Ref sig .tc := ⟨.hbm, 80, rfl⟩
abbrev main_c_5 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_cst_6 : Ref sig .tc := ⟨.hbm, 91, rfl⟩
abbrev main_v42 : Ref sig .tc := ⟨.hbm, 92, rfl⟩

abbrev nD : Nat := 1
abbrev τ : Topo := Topo.v7x

variable {F : FTy → Type} [FloatOps F]

class Facts₀ : Prop where
  shapeCasts_S1024x8_S8192 : S1024x8.ShapeCasts S8192
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  bcast_S1x64_S8192x64_0_1 : S1x64.BroadcastsInDim S8192x64 (![0, 1] : Fin 2 → Fin S8192x64.rank)
  natLt_1_32 : 1 < 32
  bcast_S_S_ : S_.BroadcastsInDim S_ (![] : Fin 0 → Fin S_.rank)
  reduceWindows_S8192x64_S8192x64_w8192s1p8191_0_w1s1p0_0 : S8192x64.ReduceWindows (![8192, 1] : Fin 2 → Nat) ![1, 1] ![8191, 0] ![0, 0] S8192x64
  h_S_ : 0 < S_.numel
  bcast_S_S8192x64 : S_.BroadcastsInDim S8192x64 (![] : Fin 0 → Fin S8192x64.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S1024x1024_S1024x8x1024_0_2 : S1024x1024.BroadcastsInDim S1024x8x1024 (![0, 2] : Fin 2 → Fin S1024x8x1024.rank)
  shapeCasts_S1024x8x1024_S8192x1024 : S1024x8x1024.ShapeCasts S8192x1024
  bcast_S_S32768x1024 : S_.BroadcastsInDim S32768x1024 (![] : Fin 0 → Fin S32768x1024.rank)
  shapeCasts_S32768x1024_S64x512x1024 : S32768x1024.ShapeCasts S64x512x1024
  slices_S64x512x1024_S64x512x512_0_0_0 : S64x512x1024.Slices ![0, 0, 0] S64x512x512
  slices_S64x512x1024_S64x512x512_0_0_512 : S64x512x1024.Slices ![0, 0, 512] S64x512x512
  bcast_S_S64x512x512 : S_.BroadcastsInDim S64x512x512 (![] : Fin 0 → Fin S64x512x512.rank)
  shapeCasts_S64x512x1024_S32768x1024 : S64x512x1024.ShapeCasts S32768x1024
  shapeCasts_S1024x8_S8192x1 : S1024x8.ShapeCasts S8192x1
  bcast_S8192x1_S8192x1024_0_1 : S8192x1.BroadcastsInDim S8192x1024 (![0, 1] : Fin 2 → Fin S8192x1024.rank)
  shapeCasts_S8192x1024_S1024x8x1024 : S8192x1024.ShapeCasts S1024x8x1024
  reducesTo_S1024x8x1024_S1024x1024_d1 : S1024x8x1024.ReducesTo [1] S1024x1024
  gather_S8192x64_S8192x1x1_S8192x1_n_1_0_0_1_2_11_wf : GatherDims.WF S8192x64 S8192x1x1 S8192x1 [] [1] [0] [1] [0] 2 ![1, 1]
  scatter_S32768x1024_S8192x1_S8192x1024_1_0_0_1_wf : ScatterDims.WF S32768x1024 S8192x1 S8192x1024 [1] [0] [0] 1
  dot_S64x512x1024_S64x1024x1024_S64x512x1024_2_2_1_1_0_0_wf : DotDims.WF S64x512x1024 S64x1024x1024 S64x512x1024 [2] [2] [1] [1] [0] [0]
  dot_S64x512x512_S64x1024x512_S64x512x1024_2_2_1_1_0_0_wf : DotDims.WF S64x512x512 S64x1024x512 S64x512x1024 [2] [2] [1] [1] [0] [0]
  gather_S32768x1024_S8192x1_S8192x1024_1_0_n_n_0_1_11024_wf : GatherDims.WF S32768x1024 S8192x1 S8192x1024 [1] [0] [] [0] [] 1 ![1, 1024]

variable [Facts₀]

def gather_S8192x64_S8192x1x1_S8192x1_n_1_0_0_1_2_11 : GatherDims S8192x64 S8192x1x1 S8192x1 where
  offsetDims := []
  collapsedSliceDims := [1]
  operandBatchingDims := [0]
  startIndicesBatchingDims := [0]
  startIndexMap := [1]
  indexVectorDim := 2
  sliceSizes := ![1, 1]
  wf := gather_S8192x64_S8192x1x1_S8192x1_n_1_0_0_1_2_11_wf
def scatter_S32768x1024_S8192x1_S8192x1024_1_0_0_1 : ScatterDims S32768x1024 S8192x1 S8192x1024 where
  updateWindowDims := [1]
  insertedWindowDims := [0]
  scatterDimsToOperandDims := [0]
  indexVectorDim := 1
  wf := scatter_S32768x1024_S8192x1_S8192x1024_1_0_0_1_wf
def dot_S64x512x1024_S64x1024x1024_S64x512x1024_2_2_1_1_0_0 : DotDims S64x512x1024 S64x1024x1024 S64x512x1024 where
  lhsContracting := [2]
  rhsContracting := [2]
  lhsNonContracting := [1]
  rhsNonContracting := [1]
  lhsBatch := [0]
  rhsBatch := [0]
  wf := dot_S64x512x1024_S64x1024x1024_S64x512x1024_2_2_1_1_0_0_wf
def dot_S64x512x512_S64x1024x512_S64x512x1024_2_2_1_1_0_0 : DotDims S64x512x512 S64x1024x512 S64x512x1024 where
  lhsContracting := [2]
  rhsContracting := [2]
  lhsNonContracting := [1]
  rhsNonContracting := [1]
  lhsBatch := [0]
  rhsBatch := [0]
  wf := dot_S64x512x512_S64x1024x512_S64x512x1024_2_2_1_1_0_0_wf
def gather_S32768x1024_S8192x1_S8192x1024_1_0_n_n_0_1_11024 : GatherDims S32768x1024 S8192x1 S8192x1024 where
  offsetDims := [1]
  collapsedSliceDims := [0]
  operandBatchingDims := []
  startIndicesBatchingDims := []
  startIndexMap := [0]
  indexVectorDim := 1
  sliceSizes := ![1, 1024]
  wf := gather_S32768x1024_S8192x1_S8192x1024_1_0_n_n_0_1_11024_wf

class Facts : Prop extends Facts₀ where

variable [Facts]
-- ==== Proof.Shared.lean ====
/-
  The host computations the two programs share, each as ONE pure function, and the reference's middle.

  Both programs route every (token, slot) pair to an expert bucket before the per-expert MLP and gather the
  results back afterwards, with the same host operations:
    `slotOf idx`        the flat bucket position of each of the 8192 pairs: expert · 512 + min(rank within expert, 511)
                         (one-hot, a running count down the pairs, the count read at the pair's own expert, the clamp);
    `dispatch x idx`    the [64, 512, 1024] bucket array: token rows scattered to their positions over zeros;
    `combine s y w`     rows of the [64·512, 1024] result gathered at the positions, scaled by the routing weights
                         and summed over each token's 8 slots.
  They are carried opaque: the certificate never opens them, it only needs both programs to apply the SAME function.
  `refmid` is what the reference computes in between: two batched contractions around the gated activation.
-/
import proofs.«101438_j11802570129921_1_alg».proof.Proof.Gen.KernelIdeal
import proofs.«101438_j11802570129921_1_alg».proof.Proof.Gen.ReferenceIdeal

noncomputable section

namespace Cert.Hand.Shared

open Idealize.ShloMosaic Idealize.SL.Sem

variable {F : FTy → Type} [FloatOps F]

section KernelSide
open Cert.KernelIdeal Cert.KernelIdeal.Facts₀ Cert.KernelIdeal.Facts

/-- Contents of a buffer of shape `S` and element type `e`. -/
abbrev C (F : FTy → Type) (S : Shape) (e : EltTy) : Type := (⟨S, e⟩ : BufTy).Contents (Elt F)

/-- The bucket position of every (token, slot) pair, from the routing indices. -/
def slotOf (a1 : C F S1024x8 .i32) : C F S8192 .i32 :=
  have v0 : C F S8192 .i32 := fun i => shapeCast S8192 a1 shapeCasts_S1024x8_S8192 i
  -- one-hot of the expert index over the 64 experts
  have h0 : C F S8192x1 .i32 := broadcastInDim S8192x1 ![0] bcast_S8192_S8192x1_0 v0
  have h1 : C F S1x64 .i32 := iotaInDim S1x64 32 1
  have h2 : C F S8192x64 .i32 := broadcastInDim S8192x64 ![0, 1] bcast_S8192x1_S8192x64_0_1 h0
  have h3 : C F S8192x64 .i32 := broadcastInDim S8192x64 ![0, 1] bcast_S1x64_S8192x64_0_1 h1
  have h4 : C F S8192x64 .i1 := cmpi .eq h2 h3
  have v1 : C F S8192x64 .i32 := extui 32 h4 natLt_1_32
  -- running count down the pairs
  have s0 : C F S_ .i32 := constantI S_ 32 0#32
  have s1 : C F S_ .i32 := broadcastInDim S_ ![] bcast_S_S_ s0
  have v2 : C F S8192x64 .i32 := Host.reduceWindow IntOp.addi ![8192, 1] ![1, 1] ![8191, 0] ![0, 0] v1 s1 reduceWindows_S8192x64_S8192x64_w8192s1p8191_0_w1s1p0_0 h_S_
  have c : C F S_ .i32 := constantI S_ 32 1#32
  have v3 : C F S8192x64 .i32 := broadcastInDim S8192x64 ![] bcast_S_S8192x64 c
  have v4 : C F S8192x64 .i32 := subi v2 v3
  have v5 : C F S8192x1 .i32 := broadcastInDim S8192x1 ![0] bcast_S8192_S8192x1_0 v0
  -- the count read at the pair's own expert
  have t_c : C F S_ .i32 := constantI S_ 32 0#32
  have t0 : C F S8192x1 .i32 := broadcastInDim S8192x1 ![] bcast_S_S8192x1 t_c
  have t1 : C F S8192x1 .i1 := cmpi .slt v5 t0
  have t_c0 : C F S_ .i32 := constantI S_ 32 64#32
  have t2 : C F S8192x1 .i32 := broadcastInDim S8192x1 ![] bcast_S_S8192x1 t_c0
  have t3 : C F S8192x1 .i32 := addi v5 t2
  have t4 : C F S8192x1 .i32 := select t1 t3 v5
  have t5 : C F S8192x1x1 .i32 := fun i => shapeCast S8192x1x1 t4 shapeCasts_S8192x1_S8192x1x1 i
  have t_c1 : C F S1 .i32 := constantI S1 32 63#32
  have t_c2 : C F S_ .i32 := constantI S_ 32 0#32
  have t6 : C F S8192x1x1 .i32 := broadcastInDim S8192x1x1 ![] bcast_S_S8192x1x1 t_c2
  have t7 : C F S8192x1x1 .i1 := cmpi .sge t5 t6
  have t8 : C F S1x1x1 .i32 := broadcastInDim S1x1x1 ![2] bcast_S1_S1x1x1_2 t_c1
  have t9 : C F S8192x1x1 .i32 := broadcastInDim S8192x1x1 ![0, 1, 2] bcast_S1x1x1_S8192x1x1_0_1_2 t8
  have t10 : C F S8192x1x1 .i1 := cmpi .sle t5 t9
  have t11 : C F S8192x1x1 .i1 := andi t7 t10
  have t_c3 : C F S_ .i1 := constantI S_ 1 1#1
  have t12 : C F S8192x1 .i1 := Host.reduce IntOp.andi t11 t_c3 reducesTo_S8192x1x1_S8192x1_d2 h_S_
  have t13 : C F S8192x1 .i32 := Host.gather gather_S8192x64_S8192x1x1_S8192x1_n_1_0_0_1_2_11 v4 t5
  have t_c4 : C F S_ .i32 := constantI S_ 32 2147483648#32
  have t14 : C F S8192x1 .i32 := broadcastInDim S8192x1 ![] bcast_S_S8192x1 t_c4
  have v6 : C F S8192x1 .i32 := select t12 t13 t14
  -- the clamp and the flat position
  have v7 : C F S8192 .i32 := fun i => shapeCast S8192 v6 shapeCasts_S8192x1_S8192 i
  have c_0 : C F S_ .i32 := constantI S_ 32 511#32
  have v8 : C F S8192 .i32 := broadcastInDim S8192 ![] bcast_S_S8192 c_0
  have v9 : C F S8192 .i32 := minsi v7 v8
  have c_1 : C F S_ .i32 := constantI S_ 32 512#32
  have v10 : C F S8192 .i32 := broadcastInDim S8192 ![] bcast_S_S8192 c_1
  have v11 : C F S8192 .i32 := muli v0 v10
  addi v11 v9

/-- A position vector with negative entries wrapped once by the array's 32768 rows, as a column of indices. -/
def wrapped (v12 : C F S8192 .i32) : C F S8192x1 .i32 :=
  have c_2 : C F S_ .i32 := constantI S_ 32 0#32
  have v16 : C F S8192 .i32 := broadcastInDim S8192 ![] bcast_S_S8192 c_2
  have v17 : C F S8192 .i1 := cmpi .slt v12 v16
  have c_3 : C F S_ .i32 := constantI S_ 32 32768#32
  have v18 : C F S8192 .i32 := broadcastInDim S8192 ![] bcast_S_S8192 c_3
  have v19 : C F S8192 .i32 := addi v12 v18
  have v20 : C F S8192 .i32 := select v17 v19 v12
  broadcastInDim S8192x1 ![0] bcast_S8192_S8192x1_0 v20

/-- The bucket array: each token's row repeated for its 8 slots and scattered to the pairs' positions over zeros. -/
def dispatch (a0 : C F S1024x1024 .f32) (a1 : C F S1024x8 .i32) : C F S64x512x1024 .f32 :=
  have v13 : C F S1024x8x1024 .f32 := broadcastInDim S1024x8x1024 ![0, 2] bcast_S1024x1024_S1024x8x1024_0_2 a0
  have v14 : C F S8192x1024 .f32 := fun i => shapeCast S8192x1024 v13 shapeCasts_S1024x8x1024_S8192x1024 i
  have cst : C F S_ .f32 := constant S_ .f32 0x00000000#32
  have v15 : C F S32768x1024 .f32 := broadcastInDim S32768x1024 ![] bcast_S_S32768x1024 cst
  have v22 : C F S32768x1024 .f32 := Host.scatter scatter_S32768x1024_S8192x1_S8192x1024_1_0_0_1 (fun _ b => b) v15 (wrapped (slotOf a1)) v14
  fun i => shapeCast S64x512x1024 v22 shapeCasts_S32768x1024_S64x512x1024 i

/-- The combine: the result rows gathered at the pairs' positions, scaled by the routing weights, summed over the 8 slots. -/
def combine (v12 : C F S8192 .i32) (yd : C F S64x512x1024 .f32) (a2 : C F S1024x8 .f32) : C F S1024x1024 .f32 :=
  have v25 : C F S32768x1024 .f32 := fun i => shapeCast S32768x1024 yd shapeCasts_S64x512x1024_S32768x1024 i
  have v32 : C F S8192x1024 .f32 := Host.gather gather_S32768x1024_S8192x1_S8192x1024_1_0_n_n_0_1_11024 v25 (wrapped v12)
  have v33 : C F S8192x1 .f32 := fun i => shapeCast S8192x1 a2 shapeCasts_S1024x8_S8192x1 i
  have v34 : C F S8192x1024 .f32 := broadcastInDim S8192x1024 ![0, 1] bcast_S8192x1_S8192x1024_0_1 v33
  have v35 : C F S8192x1024 .f32 := mulf v32 v34
  have v36 : C F S1024x8x1024 .f32 := fun i => shapeCast S1024x8x1024 v35 shapeCasts_S8192x1024_S1024x8x1024 i
  have cst_6 : C F S_ .f32 := constant S_ .f32 0x00000000#32
  Host.reduceAdd v36 cst_6 reducesTo_S1024x8x1024_S1024x1024_d1 h_S_

end KernelSide

section ReferenceSide
open Cert.ReferenceIdeal Cert.ReferenceIdeal.Facts₀ Cert.ReferenceIdeal.Facts

/-- The reference between dispatch and combine: the batched projection, its two halves, `g · (1 / (1 + exp (−g)))` times
    the up half, and the batched down projection. -/
def refmid (xd : C F S64x512x1024 .f32) (gu : C F S64x1024x1024 .f32) (dn : C F S64x1024x512 .f32) : C F S64x512x1024 .f32 :=
  have v24 : C F S64x512x1024 .f32 := Host.dotGeneral dot_S64x512x1024_S64x1024x1024_S64x512x1024_2_2_1_1_0_0 none xd gu
  have v25 : C F S64x512x512 .f32 := extractStridedSlice S64x512x512 ![0, 0, 0] v24 slices_S64x512x1024_S64x512x512_0_0_0
  have v26 : C F S64x512x512 .f32 := extractStridedSlice S64x512x512 ![0, 0, 512] v24 slices_S64x512x1024_S64x512x512_0_0_512
  have u0 : C F S64x512x512 .f32 := Host.negf v25
  have u1 : C F S64x512x512 .f32 := Host.exp u0
  have one : C F S_ .f32 := constant S_ .f32 0x3F800000#32
  have u2 : C F S64x512x512 .f32 := broadcastInDim S64x512x512 ![] bcast_S_S64x512x512 one
  have u3 : C F S64x512x512 .f32 := addf u2 u1
  have one' : C F S_ .f32 := constant S_ .f32 0x3F800000#32
  have u4 : C F S64x512x512 .f32 := broadcastInDim S64x512x512 ![] bcast_S_S64x512x512 one'
  have u5 : C F S64x512x512 .f32 := Host.divf u4 u3
  have v27 : C F S64x512x512 .f32 := mulf v25 u5
  have v28 : C F S64x512x512 .f32 := mulf v27 v26
  Host.dotGeneral dot_S64x512x512_S64x1024x512_S64x512x1024_2_2_1_1_0_0 none v28 dn

end ReferenceSide

end Cert.Hand.Shared

end
-- ==== Proof.KHost.lean ====
/-
  The host side of the kernel program, read as the shared functions.

  When the per-expert region is entered, the position vector holds `slotOf` of the routing indices and the bucket
  array `dispatch` of the tokens and the routing indices; the operations after the region compute `combine` of the
  position vector, whatever the region left in its output array, and the routing weights.
-/
import proofs.«101438_j11802570129921_1_alg».proof.Proof.Gen.KernelIdeal.Frame
import proofs.«101438_j11802570129921_1_alg».proof.Proof.Shared
import Idealize.ShloMosaic.Lib.StableHlo.Run

set_option maxRecDepth 16384

noncomputable section

namespace Cert.Hand.KHost

open Cert.KernelIdeal Cert.KernelIdeal.Gen Idealize.ShloMosaic Idealize.ShloMosaic.TcCoe Idealize.SL.Sem
open Idealize.ShloMosaic.StableHlo Cert.Hand.Shared

variable {F : FTy → Type} [FloatOps F]
variable (m : (ℓ : Loc nD τ sig) → Buf (Elt F) ℓ)

-- The two sides below are the same tree of operations; the window sum, the reductions, the gather and the scatter are
-- never opened to see it, and each buffer's type is read off the signature once per operation, hence the bound.
attribute [local irreducible] Host.reduce Host.gather Host.scatter Host.reduceWindow Host.reduceAdd in
set_option maxHeartbeats 4000000 in
/-- At the region's entry the position vector is `slotOf` of the routing indices as launched. -/
theorem V_slot (c : Dev nD) :
    (V m c main_v12 : C F S8192 .i32) = slotOf (m ((c : Thread nD τ).loc main_arg1)) := by
  dsimp only [Gen.V, Gen.V0]
  simp only [hostOps0, hostOps0_1, hostOps0_2, hostOps0_3, hostOps0_4, hostOps0_5, List.flatten_cons, List.flatten_nil,
    List.append_nil, List.cons_append, List.nil_append]
  after_results_simp
  rfl

attribute [local irreducible] Host.reduce Host.gather Host.scatter Host.reduceWindow Host.reduceAdd in
set_option maxHeartbeats 16000000 in
/-- At the region's entry the bucket array is `dispatch` of the tokens and the routing indices as launched. -/
theorem V_xd (c : Dev nD) :
    (V m c main_v23 : C F S64x512x1024 .f32)
      = dispatch (m ((c : Thread nD τ).loc main_arg0)) (m ((c : Thread nD τ).loc main_arg1)) := by
  dsimp only [Gen.V, Gen.V0]
  simp only [hostOps0, hostOps0_1, hostOps0_2, hostOps0_3, hostOps0_4, hostOps0_5, List.flatten_cons, List.flatten_nil,
    List.append_nil, List.cons_append, List.nil_append]
  after_results_simp
  rfl

set_option maxHeartbeats 2000000 in
/-- The operations after the region, from any contents of the buffers they read, compute `combine`. -/
theorem tail_after (W : Valuation τ sig (Elt F)) :
    (after hostOps1 W (Proc.devRef .tc main_v37) : C F S1024x1024 .f32)
      = combine (W (Proc.devRef .tc main_v12)) (W (Proc.devRef .tc main_v24)) (W (Proc.devRef .tc main_arg2)) := by
  after_results_simp
  rfl

/-- The result buffer after the whole program: `combine` of the position vector as the region found it, the region's
    output array after the run, and the routing weights. -/
theorem tail_eq (c : Dev nD) :
    (Pipeline.afterTail₀ cfgs (dats m) 0 (V0 m) [hostOps1] c main_v37 : C F S1024x1024 .f32)
      = combine (V m c main_v12) ((dats m 0 c).arrAt 3 cfg0.N) (V m c main_arg2) := by
  unfold Pipeline.afterTail₀
  show (after hostOps1 _ (Proc.devRef .tc main_v37) : C F S1024x1024 .f32) = _
  rw [tail_after]
  have e12 := Pipeline.withArrays_of_ne (cfgs 0).spec c (V0 m c) (fun w => (dats m 0 c).arrAt w (cfgs 0).N) main_v12
    (by exact (by decide : ∀ w, Pipeline.arrRef spec0 w ≠ main_v12))
  have e2 := Pipeline.withArrays_of_ne (cfgs 0).spec c (V0 m c) (fun w => (dats m 0 c).arrAt w (cfgs 0).N) main_arg2
    (by exact (by decide : ∀ w, Pipeline.arrRef spec0 w ≠ main_arg2))
  have e24 := Pipeline.withArrays_arr (cfgs 0).spec launch0.win.arr_inj c (V0 m c) (fun w => (dats m 0 c).arrAt w (cfgs 0).N) 3
  rw [e12, e2]
  exact congrArg (fun y => combine (V m c main_v12) y (V m c main_arg2)) e24

end Cert.Hand.KHost

end
-- ==== Proof.Spec.lean ====
/-
  The mathematics both programs compute between the dispatch and the combine, as ONE function of the three arrays.

  For an expert's block of tokens x0 [1, 512, 1024], its gate/up weights x1 [1, 1024, 1024] and its down weights
  x2 [1, 1024, 512]:
    proj  c o = ∑ k : Fin 1024, x0 (0, c, k) · x1 (0, o, k)          (the gate/up projection, 1024 columns)
    gated c i = (g · logistic g) · u  with  g = proj c i,  u = proj c (512 + i)      (SiLU-gated product, 512 columns)
    block c h = ∑ i : Fin 512, gated c i · x2 (0, h, i)              (the down projection)
  The whole [64, 512, 1024] result reads expert e's block at (c, h): `mid`.
  Everything is over the extended reals; only sums and products occur, so no finiteness is used anywhere.
-/
import Idealize.ShloMosaic.PureOps.Ideal
import Idealize.ShloMosaic.Lib.ValueIdx

noncomputable section

namespace Cert.Hand.Spec

open Idealize.ShloMosaic Idealize.ShloMosaic.ValueIdx

abbrev T1x512x1024 : Shape := ⟨3, ![1, 512, 1024]⟩
abbrev T1x1024x1024 : Shape := ⟨3, ![1, 1024, 1024]⟩
abbrev T1x1024x512 : Shape := ⟨3, ![1, 1024, 512]⟩
abbrev T64x512x1024 : Shape := ⟨3, ![64, 512, 1024]⟩
abbrev T64x1024x1024 : Shape := ⟨3, ![64, 1024, 1024]⟩
abbrev T64x1024x512 : Shape := ⟨3, ![64, 1024, 512]⟩

/-- Column `i` of the first half and column `512 + i` of the second half of the 1024 projected columns. -/
abbrev lo (i : Fin 512) : Fin 1024 := ⟨i.val, by omega⟩
abbrev hi (i : Fin 512) : Fin 1024 := ⟨512 + i.val, by omega⟩

/-- The gate/up projection of token `c` onto column `o`: the inner product of the token's row with the weight's row `o`. -/
def proj (x0 : T1x512x1024.Idx → EReal) (x1 : T1x1024x1024.Idx → EReal) (c : Fin 512) (o : Fin 1024) : EReal :=
  ∑ k : Fin 1024, x0 (ix3 0 c k) * x1 (ix3 0 o k)

/-- The SiLU-gated product at hidden column `i`: `(g · logistic g) · u`, `g` the gate column `i`, `u` the up column `512 + i`. -/
def gated (x0 : T1x512x1024.Idx → EReal) (x1 : T1x1024x1024.Idx → EReal) (c : Fin 512) (i : Fin 512) : EReal :=
  (proj x0 x1 c (lo i) * Ideal.logistic (proj x0 x1 c (lo i))) * proj x0 x1 c (hi i)

/-- One expert's output block: the gated hidden row of token `c` against row `h` of the down weights. -/
def block (x0 : T1x512x1024.Idx → EReal) (x1 : T1x1024x1024.Idx → EReal) (x2 : T1x1024x512.Idx → EReal) :
    T1x512x1024.Idx → EReal :=
  fun y => ∑ i : Fin 512, gated x0 x1 (y 1) i * x2 (ix3 0 (y 2) i)

/-- Expert `e`'s slab of a [64, a, b] array, as a [1, a, b] array. -/
def slab {a b : Nat} (x : (⟨3, ![64, a, b]⟩ : Shape).Idx → EReal) (e : Fin 64) : (⟨3, ![1, a, b]⟩ : Shape).Idx → EReal :=
  fun y => x (ix3 e (y 1) (y 2))

/-- The per-expert gated MLP over all 64 experts: entry (e, c, h) is expert `e`'s block at (c, h). -/
def mid (xd : T64x512x1024.Idx → EReal) (gu : T64x1024x1024.Idx → EReal) (dn : T64x1024x512.Idx → EReal) :
    T64x512x1024.Idx → EReal :=
  fun j => block (slab xd (j 0)) (slab gu (j 0)) (slab dn (j 0)) (ix3 0 (j 1) (j 2))

end Cert.Hand.Spec

end
-- ==== Proof.KBlocks.lean ====
/-
  The per-expert region's output array, after the run, as one function of the arrays it finds.

  The grid has one point per expert; at point t every window's block is the slab of expert t: rows and columns
  whole, the leading index t. So what point t writes back is the spec's block function of the three slabs, which is
  the restriction of `mid` to expert t; the 64 slabs tile the [64, 512, 1024] array (index i lies in the block of
  point i 0), hence the array ends at `mid` of the bucket array and the two weight arrays.
-/
import proofs.«101438_j11802570129921_1_alg».proof.Proof.Gen.KernelIdeal.Frame
import proofs.«101438_j11802570129921_1_alg».proof.Proof.Spec
import Idealize.ShloMosaic.Lib.Pipeline.Value
import Idealize.ShloMosaic.Lib.ValueIdx

set_option maxRecDepth 16384

noncomputable section

namespace Cert.Hand.KBlocks

open Cert.KernelIdeal Cert.KernelIdeal.Gen Idealize.ShloMosaic Idealize.ShloMosaic.TcCoe Idealize.SL.Sem
open Idealize.ShloMosaic.Pipeline (Dat Cfg Window)
open Idealize.ShloMosaic.ValueIdx Cert.Hand.Spec

variable (m : (ℓ : Loc nD τ sig) → Buf (Elt Ideal) ℓ)

theorem hz3 : (![0, 0, 0] : Fin 3 → Nat) = fun _ => 0 := funext fun a => by fin_cases a <;> rfl

/-- The printed index maps, decided over the grid: at point t every window's block index is (t, 0, 0). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- The expert a grid point works on. -/
def expert (t : Fin cfg0.N) : Fin 64 := ⟨t.val, N_0 ▸ t.isLt⟩

/-- The three arrays the region reads (windows 0, 1, 2: the bucket array, the gate/up weights, the down weights), at
    their literal types. -/
abbrev xdArr (c : Dev nD) : T64x512x1024.Idx → EReal := V m c (Pipeline.arrRef spec0 0)
abbrev guArr (c : Dev nD) : T64x1024x1024.Idx → EReal := V m c (Pipeline.arrRef spec0 1)
abbrev dnArr (c : Dev nD) : T64x1024x512.Idx → EReal := V m c (Pipeline.arrRef spec0 2)

/-- Where entry y of point t's block of the bucket array lies in its array: (expert t, y 1, y 2). -/
theorem emb0 (t : Fin cfg0.N) (y : T1x512x1024.Idx) :
    (((cfg0.win 0).blk t).view.emb y : T64x512x1024.Idx) = ix3 (expert t) (y 1) (y 2) := by
  obtain ⟨e0, e1, e2, -⟩ := idx_facts t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 512 + 1 * (y 1).val = (y 1).val; omega
  | ⟨2, _⟩ => show win0_0.index t (2 : Fin 3) * 1024 + 1 * (y 2).val = (y 2).val; omega

/-- Where entry y of point t's block of the gate/up weights lies in its array: (expert t, y 1, y 2). -/
theorem emb1 (t : Fin cfg0.N) (y : T1x1024x1024.Idx) :
    (((cfg0.win 1).blk t).view.emb y : T64x1024x1024.Idx) = ix3 (expert t) (y 1) (y 2) := by
  obtain ⟨-, -, -, e0, e1, e2, -⟩ := idx_facts t
  funext a; apply Fin.ext
  match a with
  | ⟨0, _⟩ => show win0_1.index t (0 : Fin 3) * 1 + 1 * (y 0).val = t.val; have hy : (y 0).val < 1 := (y 0).isLt; omega
  | ⟨1, _⟩ => show win0_1.index t (1 : Fin 3) * 1024 + 1 * (y 1).val = (y 1).val; omega
  | ⟨2, _⟩ => show win0_1.index t (2 : Fin 3) * 1024 + 1 * (y 2).val = (y 2).val; omega

/-- Where entry y of point t's block of the down weights lies in its array: (expert t, y 1, y 2). -/
theorem emb2 (t : Fin cfg0.N) (y : T1x1024x512.Idx) :
    (((cfg0.win 2).blk t).view.emb y : T64x1024x512.Idx) = ix3 (expert t) (y 1) (y 2) := by
  obtain ⟨-, -, -, -, -, -, e0, e1, e2, -⟩ := idx_facts t
  funext a; apply Fin.ext
  match a with
  | ⟨0, _⟩ => show win0_2.index t (0 : Fin 3) * 1 + 1 * (y 0).val = t.val; have hy : (y 0).val < 1 := (y 0).isLt; omega
  | ⟨1, _⟩ => show win0_2.index t (1 : Fin 3) * 1024 + 1 * (y 1).val = (y 1).val; omega
  | ⟨2, _⟩ => show win0_2.index t (2 : Fin 3) * 512 + 1 * (y 2).val = (y 2).val; omega

/-- Where the output block's entry y lands in the output array: (expert t, y 1, y 2). -/
theorem emb3 (t : Fin cfg0.N) (y : T1x512x1024.Idx) :
    (((cfg0.win 3).blk t).view.emb y : T64x512x1024.Idx) = ix3 (expert t) (y 1) (y 2) := by
  obtain ⟨-, -, -, -, -, -, -, -, -, e0, e1, e2⟩ := idx_facts t
  funext a; apply Fin.ext
  match a with
  | ⟨0, _⟩ => show win0_3.index t (0 : Fin 3) * 1 + 1 * (y 0).val = t.val; have hy : (y 0).val < 1 := (y 0).isLt; omega
  | ⟨1, _⟩ => show win0_3.index t (1 : Fin 3) * 512 + 1 * (y 1).val = (y 1).val; omega
  | ⟨2, _⟩ => show win0_3.index t (2 : Fin 3) * 1024 + 1 * (y 2).val = (y 2).val; omega

/-- For ANY three arrays: the spec's block function of point t's three blocks, read back through the output window,
    is block t of `mid` of the arrays. Point t's blocks are expert t's slabs and the output block lands on expert t's
    slab, so both sides are the block function of the same slabs at the same (row, column). -/
theorem flushed_core (A0 : T64x512x1024.Idx → EReal) (A1 : T64x1024x1024.Idx → EReal) (A2 : T64x1024x512.Idx → EReal)
    (t : Fin cfg0.N) :
    (cfg0.win 3).cut (grid0.coords t)
        (block (((cfg0.win 0).blk t).view.read (Elt Ideal) A0) (((cfg0.win 1).blk t).view.read (Elt Ideal) A1)
          (((cfg0.win 2).blk t).view.read (Elt Ideal) A2))
      = ((cfg0.win 3).blk t).view.read (Elt Ideal) (mid A0 A1 A2) := by
  funext y
  show block (fun z => A0 (((cfg0.win 0).blk t).view.emb z)) (fun z => A1 (((cfg0.win 1).blk t).view.emb z))
      (fun z => A2 (((cfg0.win 2).blk t).view.emb z)) y = mid A0 A1 A2 (((cfg0.win 3).blk t).view.emb y)
  rw [emb3 t y]
  simp only [emb0 t, emb1 t, emb2 t]
  rfl

/-- WHAT POINT t WRITES BACK is block t of `mid` of the arrays the region finds, given that the body's stored
    value is the spec's block function of its three loaded blocks. -/
theorem flushed_eq
    (hpay : ∀ (x0 : Vec Ideal S1x512x1024 .f32) (x1 : Vec Ideal S1x1024x1024 .f32) (x2 : Vec Ideal S1x1024x512 .f32),
      k0_pay1 (F := Ideal) x0 x1 x2 = block x0 x1 x2)
    (c : Dev nD) (t : Fin cfg0.N) :
    (dats m 0 c).flushed 3 t = ((cfg0.win 3).blk t).view.read (Elt Ideal) (mid (xdArr m c) (guArr m c) (dnArr m c)) := by
  show (cfg0.win 3).cut (grid0.coords t) ((dats m 0 c).after 3 t) = _
  rw [after0_3]
  unfold out0_3
  rw [View.canon_unit_zero hz3]
  simp only [View.ld_unit_zero (S := S1x512x1024) hz3, View.ld_unit_zero (S := S1x1024x1024) hz3,
    View.ld_unit_zero (S := S1x1024x512) hz3]
  rw [hpay]
  unfold iblk
  exact flushed_core (xdArr m c) (guArr m c) (dnArr m c) t

/-- An index of the output array is in point t's block iff each coordinate is in the block's range on its axis. -/
theorem mem_blk3 (t : Fin cfg0.N) (i : S64x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v24).slice (win0_3.rect t)).set ↔ _
  rw [View.set_slice_whole, Rect.mem_set_unit]
  exact Iff.rfl

/-- The 64 slabs tile the output array: index i is in the block of point i 0. -/
theorem cover3 (i : S64x512x1024.Idx) :
    ∃ t : Fin cfg0.N, (cfg0.win 3).flush t = true ∧ i ∈ ((cfg0.win 3).blk t).view.set := by
  have hi0 : (i 0).val < 64 := (i 0).isLt
  have hi1 : (i 1).val < 512 := (i 1).isLt
  have hi2 : (i 2).val < 1024 := (i 2).isLt
  have hN : (i 0).val < cfg0.N := by rw [show cfg0.N = grid0.N from rfl, N_0]; exact hi0
  obtain ⟨t, ht⟩ : ∃ t : Fin cfg0.N, t.val = (i 0).val := ⟨⟨(i 0).val, hN⟩, rfl⟩
  refine ⟨t, flush0_3 t, ?_⟩
  obtain ⟨-, -, -, -, -, -, -, -, -, e0, e1, e2⟩ := idx_facts t
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- THE OUTPUT ARRAY after the run: `mid` of the bucket array and the two weight arrays as the region finds them. -/
theorem final3
    (hpay : ∀ (x0 : Vec Ideal S1x512x1024 .f32) (x1 : Vec Ideal S1x1024x1024 .f32) (x2 : Vec Ideal S1x1024x512 .f32),
      k0_pay1 (F := Ideal) x0 x1 x2 = block x0 x1 x2)
    (c : Dev nD) :
    (dats m 0 c).arrAt 3 cfg0.N = mid (xdArr m c) (guArr m c) (dnArr m c) :=
  (dats m 0 c).arrAt_eq_of_cover 3 _ (fun t _ => flushed_eq m hpay c t) cover3

end Cert.Hand.KBlocks

end
-- ==== Proof.KPay.lean ====
/-
  The kernel body's one stored value is the block function of the specification, at the extended reals.

  For a token block x0 [1, 512, 1024], gate/up weights x1 [1, 1024, 1024] and down weights x2 [1, 1024, 512] the body
  computes, entry by entry:
    P (c, o) = ∑ k : Fin 1024, x0 (0, c, k) · x1 (0, o, k)      a product against the TRANSPOSED weights, so the
                                                                 weights are read at (o, k): the projection `proj c o`;
    G (c, i) = (P (c, i) · logistic (P (c, i))) · P (c, 512 + i) the two column halves of P, gated: `gated c i`;
    R (c, h) = ∑ i : Fin 512, G (c, i) · x2 (0, h, i)            a product against the transposed down weights: `block`.
  The unit leading axis is dropped on the way in and put back on the way out, and the narrowing format changes are the
  identity on extended reals. Each product's contraction index is re-indexed by its one coordinate; nothing else is
  summed, and no law of arithmetic beyond reading each operation at an entry is used.
-/
import proofs.«101438_j11802570129921_1_alg».proof.Proof.Gen.KernelIdeal.Skeleton
import proofs.«101438_j11802570129921_1_alg».proof.Proof.Spec
import Idealize.ShloMosaic.Lib.ValueIdx
import Idealize.ShloMosaic.Lib.Pipeline.Value
import Idealize.ShloMosaic.PureOps.Ideal.Laws

noncomputable section

namespace Cert.Hand.KPay

open Idealize.ShloMosaic Idealize.ShloMosaic.ValueIdx Cert.KernelIdeal

/-- Dropping a leading unit axis: entry (p, q) of the rank-2 array is entry (0, p, q) of the rank-3 one. -/
theorem dropUnit_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 0 p q) :=
  (shapeCast_dropUnit_apply ![a, b] v h (ix2 p q)).trans
    (congrArg v (funext fun d => match d with | ⟨0, _⟩ => rfl | ⟨1, _⟩ => rfl | ⟨2, _⟩ => rfl))

/-- Adding a leading unit axis: entry (0, p, q) of the rank-3 array is entry (p, q) of the rank-2 one. -/
theorem addUnit_apply {α : Type} {a b : Nat} (v : (⟨2, ![a, b]⟩ : Shape).Idx → α)
    (h : (⟨2, ![a, b]⟩ : Shape).ShapeCasts ⟨3, ![1, a, b]⟩) (p : Fin a) (q : Fin b) :
    shapeCast ⟨3, ![1, a, b]⟩ v h (ix3 0 p q) = v (ix2 p q) :=
  (shapeCast_addUnit_apply ![a, b] v h (ix3 0 p q)).trans
    (congrArg v (funext fun d => match d with | ⟨0, _⟩ => rfl | ⟨1, _⟩ => rfl))

/-- A rank-2 transpose: entry (p, q) of the result is entry (q, p) of the operand. -/
theorem transpose2_apply {α : Type} {a b : Nat} (v : (⟨2, ![a, b]⟩ : Shape).Idx → α)
    (h : (⟨2, ![a, b]⟩ : Shape).Transposes [1, 0] ⟨2, ![b, a]⟩) (p : Fin b) (q : Fin a) :
    transpose ⟨2, ![b, a]⟩ [1, 0] v h (ix2 p q) = v (ix2 q p) :=
  transpose_apply [1, 0] v h (ix2 p q) (ix2 q p) (fun d => match d with | ⟨0, _⟩ => rfl | ⟨1, _⟩ => rfl)

/-- The first half of the projected columns: entry (p, i) of the slice is entry (p, i) of the whole. -/
theorem slice_lo_apply {α : Type} (v : S512x1024.Idx → α) (h : S512x1024.Slices ![0, 0] S512x512) (p : Fin 512) (i : Fin 512) :
    extractStridedSlice S512x512 ![0, 0] v h (ix2 p i) = v (ix2 p (Spec.lo i)) :=
  extractStridedSlice_apply ![0, 0] v h (ix2 p i) (ix2 p (Spec.lo i))
    (fun d => match d with | ⟨0, _⟩ => (Nat.zero_add _).symm | ⟨1, _⟩ => (Nat.zero_add _).symm)

/-- The second half: entry (p, i) of the slice is entry (p, 512 + i) of the whole. -/
theorem slice_hi_apply {α : Type} (v : S512x1024.Idx → α) (h : S512x1024.Slices ![0, 512] S512x512) (p : Fin 512) (i : Fin 512) :
    extractStridedSlice S512x512 ![0, 512] v h (ix2 p i) = v (ix2 p (Spec.hi i)) :=
  extractStridedSlice_apply ![0, 512] v h (ix2 p i) (ix2 p (Spec.hi i))
    (fun d => match d with | ⟨0, _⟩ => (Nat.zero_add _).symm | ⟨1, _⟩ => rfl)

/-- The logistic of a vector, entry by entry. -/
theorem logistic_apply {s : Shape} {φ : FTy} (a : FVec Ideal s φ) (i : s.Idx) : logistic a i = Ideal.logistic (a i) := rfl

/-! ## The first product: tokens [512, 1024] against transposed gate/up weights [1024, 1024]

Its operand indices at result entry `j` and contraction position `k`, axis by axis: the left operand reads row `j 0`,
column `k`; the right operand reads row `k`, column `j 1`. -/

theorem lhs1_0 (j : S512x1024.Idx) (k : dot_S512x1024_S1024x1024_S512x1024_1_0_0_1_n_n.contr.Idx) :
    (dot_S512x1024_S1024x1024_S512x1024_1_0_0_1_n_n.lhsIdx j k 0).val = (j 0).val := by
  unfold DotDims.lhsIdx
  rw [dif_neg (show ¬ (0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem lhs1_1 (j : S512x1024.Idx) (k : dot_S512x1024_S1024x1024_S512x1024_1_0_0_1_n_n.contr.Idx) :
    (dot_S512x1024_S1024x1024_S512x1024_1_0_0_1_n_n.lhsIdx j k 1).val = (k ⟨0, by decide⟩).val :=
  dot_S512x1024_S1024x1024_S512x1024_1_0_0_1_n_n.lhsIdx_val_of_single rfl j k
theorem rhs1_0 (j : S512x1024.Idx) (k : dot_S512x1024_S1024x1024_S512x1024_1_0_0_1_n_n.contr.Idx) :
    (dot_S512x1024_S1024x1024_S512x1024_1_0_0_1_n_n.rhsIdx j k 0).val = (k ⟨0, by decide⟩).val :=
  dot_S512x1024_S1024x1024_S512x1024_1_0_0_1_n_n.rhsIdx_val_of_single rfl j k
theorem rhs1_1 (j : S512x1024.Idx) (k : dot_S512x1024_S1024x1024_S512x1024_1_0_0_1_n_n.contr.Idx) :
    (dot_S512x1024_S1024x1024_S512x1024_1_0_0_1_n_n.rhsIdx j k 1).val = (j 1).val := by
  unfold DotDims.rhsIdx
  rw [dif_neg (show ¬ (1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Entry (c, o) of the first product into a zero accumulator: the sum over the 1024 contracted positions. -/
theorem mm1_apply (a : FVec Ideal S512x1024 .bf16) (b : FVec Ideal S1024x1024 .bf16) (c : Fin 512) (o : Fin 1024) :
    matmul dot_S512x1024_S1024x1024_S512x1024_1_0_0_1_n_n none a b (constant (F := Ideal) S512x1024 .f32 0x00000000#32) (ix2 c o)
      = ∑ k : Fin 1024, a (ix2 c k) * b (ix2 k o) := by
  refine (Ideal.matmul_constant_zero_apply dot_S512x1024_S1024x1024_S512x1024_1_0_0_1_n_n none a b (ix2 c o)).trans ?_
  rw [← Equiv.sum_comp (contrEquiv1 dot_S512x1024_S1024x1024_S512x1024_1_0_0_1_n_n 1024 rfl rfl).symm]
  refine Finset.sum_congr rfl fun k _ => ?_
  congr 2
  · refine Shape.idx_ext₂ ?_ ?_
    · exact lhs1_0 _ _
    · exact (lhs1_1 _ _).trans (contrEquiv1_symm_val _ 1024 rfl rfl k)
  · refine Shape.idx_ext₂ ?_ ?_
    · exact (rhs1_0 _ _).trans (contrEquiv1_symm_val _ 1024 rfl rfl k)
    · exact rhs1_1 _ _

/-! ## The second product: the gated hidden rows [512, 512] against transposed down weights [512, 1024] -/

theorem lhs2_0 (j : S512x1024.Idx) (k : dot_S512x512_S512x1024_S512x1024_1_0_0_1_n_n.contr.Idx) :
    (dot_S512x512_S512x1024_S512x1024_1_0_0_1_n_n.lhsIdx j k 0).val = (j 0).val := by
  unfold DotDims.lhsIdx
  rw [dif_neg (show ¬ (0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl
theorem lhs2_1 (j : S512x1024.Idx) (k : dot_S512x512_S512x1024_S512x1024_1_0_0_1_n_n.contr.Idx) :
    (dot_S512x512_S512x1024_S512x1024_1_0_0_1_n_n.lhsIdx j k 1).val = (k ⟨0, by decide⟩).val :=
  dot_S512x512_S512x1024_S512x1024_1_0_0_1_n_n.lhsIdx_val_of_single rfl j k
theorem rhs2_0 (j : S512x1024.Idx) (k : dot_S512x512_S512x1024_S512x1024_1_0_0_1_n_n.contr.Idx) :
    (dot_S512x512_S512x1024_S512x1024_1_0_0_1_n_n.rhsIdx j k 0).val = (k ⟨0, by decide⟩).val :=
  dot_S512x512_S512x1024_S512x1024_1_0_0_1_n_n.rhsIdx_val_of_single rfl j k
theorem rhs2_1 (j : S512x1024.Idx) (k : dot_S512x512_S512x1024_S512x1024_1_0_0_1_n_n.contr.Idx) :
    (dot_S512x512_S512x1024_S512x1024_1_0_0_1_n_n.rhsIdx j k 1).val = (j 1).val := by
  unfold DotDims.rhsIdx
  rw [dif_neg (show ¬ (1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Entry (c, o) of the second product into a zero accumulator: the sum over the 512 hidden columns. -/
theorem mm2_apply (a : FVec Ideal S512x512 .bf16) (b : FVec Ideal S512x1024 .bf16) (c : Fin 512) (o : Fin 1024) :
    matmul dot_S512x512_S512x1024_S512x1024_1_0_0_1_n_n none a b (constant (F := Ideal) S512x1024 .f32 0x00000000#32) (ix2 c o)
      = ∑ i : Fin 512, a (ix2 c i) * b (ix2 i o) := by
  refine (Ideal.matmul_constant_zero_apply dot_S512x512_S512x1024_S512x1024_1_0_0_1_n_n none a b (ix2 c o)).trans ?_
  rw [← Equiv.sum_comp (contrEquiv1 dot_S512x512_S512x1024_S512x1024_1_0_0_1_n_n 512 rfl rfl).symm]
  refine Finset.sum_congr rfl fun i _ => ?_
  congr 2
  · refine Shape.idx_ext₂ ?_ ?_
    · exact lhs2_0 _ _
    · exact (lhs2_1 _ _).trans (contrEquiv1_symm_val _ 512 rfl rfl i)
  · refine Shape.idx_ext₂ ?_ ?_
    · exact (rhs2_0 _ _).trans (contrEquiv1_symm_val _ 512 rfl rfl i)
    · exact rhs2_1 _ _

/-! ## The body, operation by operation -/

/-- The first product of the body at entry (c, o): token `c`'s row against row `o` of the gate/up weights, the
    transpose undone by reading the weights at (o, k). -/
theorem proj_apply (x0 : Vec Ideal S1x512x1024 .f32) (x1 : Vec Ideal S1x1024x1024 .f32)
    (h0 : S1x512x1024.ShapeCasts S512x1024) (h1 : S1x1024x1024.ShapeCasts S1024x1024)
    (ht : S1024x1024.Transposes [1, 0] S1024x1024) (hb : FTy.bits .bf16 < FTy.bits .f32) (c : Fin 512) (o : Fin 1024) :
    matmul dot_S512x1024_S1024x1024_S512x1024_1_0_0_1_n_n none
        (truncf .bf16 (shapeCast S512x1024 x0 h0) hb : FVec Ideal S512x1024 .bf16)
        (transpose S1024x1024 [1, 0] (truncf .bf16 (shapeCast S1024x1024 x1 h1) hb : FVec Ideal S1024x1024 .bf16) ht)
        (constant (F := Ideal) S512x1024 .f32 0x00000000#32) (ix2 c o)
      = Spec.proj x0 x1 c o := by
  rw [mm1_apply]
  unfold Spec.proj
  refine Finset.sum_congr rfl fun k _ => ?_
  rw [truncf_apply, dropUnit_apply, transpose2_apply, truncf_apply, dropUnit_apply]

/-- THE PAYLOAD IS THE BLOCK FUNCTION: entry (0, c, h) of the stored value is the sum over the 512 hidden columns of the
    gated product of token `c` against row `h` of the down weights. -/
theorem pay_eq (x0 : Vec Ideal S1x512x1024 .f32) (x1 : Vec Ideal S1x1024x1024 .f32) (x2 : Vec Ideal S1x1024x512 .f32) :
    Gen.k0_pay1 (F := Ideal) x0 x1 x2 = Spec.block x0 x1 x2 := by
  funext y
  obtain ⟨z, c, h, rfl⟩ : ∃ (z : Fin 1) (c : Fin 512) (h : Fin 1024), y = ix3 z c h := ⟨y 0, y 1, y 2, eq_ix3 y⟩
  obtain rfl : z = 0 := Subsingleton.elim _ _
  unfold Gen.k0_pay1
  dsimp only
  rw [addUnit_apply, mm2_apply]
  show _ = ∑ i : Fin 512, Spec.gated x0 x1 c i * x2 (ix3 0 h i)
  refine Finset.sum_congr rfl fun i _ => ?_
  rw [truncf_apply, mulf_apply, mulf_apply, logistic_apply, slice_lo_apply, slice_hi_apply, proj_apply, proj_apply,
    transpose2_apply, truncf_apply, dropUnit_apply]
  rfl

end Cert.Hand.KPay

end
-- ==== Proof.KRun.lean ====
/-
  The idealized kernel program's run, with its result named.

  Every execution ends with the result buffer at `combine` of the pairs' positions, the per-expert gated MLP `mid` of
  the bucket array and the two weight arrays, and the routing weights — positions and buckets being `slotOf` and
  `dispatch` of the inputs as launched — and with the five inputs unchanged.
-/
import proofs.«101438_j11802570129921_1_alg».proof.Proof.KHost
import proofs.«101438_j11802570129921_1_alg».proof.Proof.KBlocks
import proofs.«101438_j11802570129921_1_alg».proof.Proof.KPay

set_option maxRecDepth 16384

noncomputable section

namespace Cert.Hand.KRun

open Cert.KernelIdeal Cert.KernelIdeal.Gen Idealize.ShloMosaic Idealize.ShloMosaic.TcCoe Idealize.SL.Sem
open Cert.Hand.Shared Cert.Hand.Spec

variable (m : (ℓ : Loc nD τ sig) → Buf (Elt Ideal) ℓ) (ρ : Dev nD → PrngReg)

/-- The result buffer after the operations that follow the region, as the shared functions of the inputs. -/
theorem result_eq (c : Dev nD) :
    (Pipeline.afterTail₀ cfgs (dats m) 0 (V0 m) [hostOps1] c main_v37 : C Ideal S1024x1024 .f32)
      = combine (slotOf (m ((c : Thread nD τ).loc main_arg1)))
          (mid (dispatch (m ((c : Thread nD τ).loc main_arg0)) (m ((c : Thread nD τ).loc main_arg1)))
            (m ((c : Thread nD τ).loc main_arg3)) (m ((c : Thread nD τ).loc main_arg4)))
          (m ((c : Thread nD τ).loc main_arg2)) := by
  have e0 : KBlocks.xdArr m c
      = dispatch (m ((c : Thread nD τ).loc main_arg0)) (m ((c : Thread nD τ).loc main_arg1)) := KHost.V_xd m c
  have e1 : KBlocks.guArr m c = m ((c : Thread nD τ).loc main_arg3) := V_main_arg3 m c
  have e2 : KBlocks.dnArr m c = m ((c : Thread nD τ).loc main_arg4) := V_main_arg4 m c
  rw [KHost.tail_eq m c, KBlocks.final3 m KPay.pay_eq c, e0, e1, e2, KHost.V_slot m c, V_main_arg2 m c]

/-- Every weakly fair execution terminates with the result at the shared functions of the inputs and the inputs
    unchanged. -/
theorem run : θ_run (defs (F := Ideal)) (onTc (τ := τ) (main (F := Ideal))) ⟨m, fun _ => 0, ρ⟩ fun r => ∀ c : Dev nD,
      r.2.mem ((c.tc : Thread nD τ).loc main_v37)
        = combine (slotOf (m ((c.tc : Thread nD τ).loc main_arg1)))
            (mid (dispatch (m ((c.tc : Thread nD τ).loc main_arg0)) (m ((c.tc : Thread nD τ).loc main_arg1)))
              (m ((c.tc : Thread nD τ).loc main_arg3)) (m ((c.tc : Thread nD τ).loc main_arg4)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v37 (Pipeline.mem_restRefs_of main_v37 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 2).trans (((dats m 0 c).arrAt_in 2 rfl _).trans ((A_eq m c 2).trans (V_main_arg4 m c)))⟩)
    (run_main m ρ)

end Cert.Hand.KRun

end
-- ==== Proof.RefRun.lean ====
/-
  The reference program's run.

  @main of the reference is a straight line of 88 host operations once its four outlined functions are written out at
  their call sites (the one-hot of the expert index, the running count down the 8192 pairs, the count read at the pair's
  own expert, the gated activation), each over the buffers of that call's record. Run from any memory, every buffer ends
  at the composition of the operations that lead to it; the result buffer's composition is, operation for operation, the
  shared routing functions around the reference's two batched contractions:
      combine (slotOf idx) (refmid (dispatch x idx) gu dn) w,
  and no operation writes an argument buffer.
-/
import proofs.«101438_j11802570129921_1_alg».proof.Proof.Shared
import Idealize.ShloMosaic.Lib.StableHlo.Run
import Idealize.ShloMosaic.Lib.Pipeline.Regions

noncomputable section

namespace Cert.Hand.RefRun

open Cert.ReferenceIdeal Cert.ReferenceIdeal.Facts₀ Idealize.ShloMosaic Idealize.ShloMosaic.TcCoe Idealize.SL.Sem
  Idealize.ShloMosaic.StableHlo Cert.Hand.Shared

variable {F : FTy → Type} [FloatOps F]

/-- @main's 88 operations in order, each call replaced by its callee's operations over the call's record. -/
abbrev ops : List (HloOp τ sig (Elt F)) :=
  [
    reshape main_arg1 main_v0 rfl shapeCasts_S1024x8_S8192,
    -- the one-hot of the expert index (record main_call0)
    TRef.unary (.of main_v0 : TRef sig ⟨S8192, .i32⟩) main_call0.v0 (broadcastInDim S8192x1 ![0] bcast_S8192_S8192x1_0),
    TRef.nullary main_call0.v1 (iotaInDim S1x64 32 1),
    TRef.unary main_call0.v0 main_call0.v2 (broadcastInDim S8192x64 ![0, 1] bcast_S8192x1_S8192x64_0_1),
    TRef.unary main_call0.v1 main_call0.v3 (broadcastInDim S8192x64 ![0, 1] bcast_S1x64_S8192x64_0_1),
    TRef.binary main_call0.v2 main_call0.v3 main_call0.v4 (cmpi .eq),
    TRef.unary main_call0.v4 main_call0.v5 (extui 32 · natLt_1_32),
    -- the running count down the pairs (record main_call1.call0)
    TRef.nullary main_call1.call0.c (constantI S_ 32 0#32),
    TRef.unary main_call1.call0.c main_call1.call0.v0 (broadcastInDim S_ ![] bcast_S_S_),
    TRef.binary (.of main_v1 : TRef sig ⟨S8192x64, .i32⟩) main_call1.call0.v0 main_call1.call0.v1 (fun x v => Host.reduceWindow IntOp.addi ![8192, 1] ![1, 1] ![8191, 0] ![0, 0] x v reduceWindows_S8192x64_S8192x64_w8192s1p8191_0_w1s1p0_0 h_S_),
    nullary main_c (constantI S_ 32 1#32),
    unary main_c main_v3 (broadcastInDim S8192x64 ![] bcast_S_S8192x64 : (⟨S_, .i32⟩ : BufTy).Contents (Elt F) → (⟨S8192x64, .i32⟩ : BufTy).Contents (Elt F)),
    binary main_v2 main_v3 main_v4 (subi : (⟨S8192x64, .i32⟩ : BufTy).Contents (Elt F) → (⟨S8192x64, .i32⟩ : BufTy).Contents (Elt F) → (⟨S8192x64, .i32⟩ : BufTy).Contents (Elt F)),
    unary main_v0 main_v5 (broadcastInDim S8192x1 ![0] bcast_S8192_S8192x1_0 : (⟨S8192, .i32⟩ : BufTy).Contents (Elt F) → (⟨S8192x1, .i32⟩ : BufTy).Contents (Elt F)),
    -- the count read at the pair's own expert (record main_call2)
    TRef.nullary main_call2.c (constantI S_ 32 0#32),
    TRef.unary main_call2.c main_call2.v0 (broadcastInDim S8192x1 ![] bcast_S_S8192x1),
    TRef.binary (.of main_v5 : TRef sig ⟨S8192x1, .i32⟩) main_call2.v0 main_call2.v1 (cmpi .slt),
    TRef.nullary main_call2.c_0 (constantI S_ 32 64#32),
    TRef.unary main_call2.c_0 main_call2.v2 (broadcastInDim S8192x1 ![] bcast_S_S8192x1),
    TRef.binary (.of main_v5 : TRef sig ⟨S8192x1, .i32⟩) main_call2.v2 main_call2.v3 addi,
    TRef.ternary main_call2.v1 main_call2.v3 (.of main_v5 : TRef sig ⟨S8192x1, .i32⟩) main_call2.v4 select,
    TRef.reshape main_call2.v4 main_call2.v5 rfl shapeCasts_S8192x1_S8192x1x1,
    TRef.nullary main_call2.c_1 (constantI S1 32 63#32),
    TRef.nullary main_call2.c_2 (constantI S_ 32 0#32),
    TRef.unary main_call2.c_2 main_call2.v6 (broadcastInDim S8192x1x1 ![] bcast_S_S8192x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S8192x1x1 ![0, 1, 2] bcast_S1x1x1_S8192x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8192x1x1_S8192x1_d2 h_S_),
    TRef.binary (.of main_v4 : TRef sig ⟨S8192x64, .i32⟩) main_call2.v5 main_call2.v13 (fun x i => Host.gather gather_S8192x64_S8192x1x1_S8192x1_n_1_0_0_1_2_11 x i),
    TRef.nullary main_call2.c_4 (constantI S_ 32 2147483648#32),
    TRef.unary main_call2.c_4 main_call2.v14 (broadcastInDim S8192x1 ![] bcast_S_S8192x1),
    TRef.ternary main_call2.v12 main_call2.v13 main_call2.v14 main_call2.v15 select,
    reshape main_v6 main_v7 rfl shapeCasts_S8192x1_S8192,
    nullary main_c_0 (constantI S_ 32 511#32),
    unary main_c_0 main_v8 (broadcastInDim S8192 ![] bcast_S_S8192 : (⟨S_, .i32⟩ : BufTy).Contents (Elt F) → (⟨S8192, .i32⟩ : BufTy).Contents (Elt F)),
    binary main_v7 main_v8 main_v9 (minsi : (⟨S8192, .i32⟩ : BufTy).Contents (Elt F) → (⟨S8192, .i32⟩ : BufTy).Contents (Elt F) → (⟨S8192, .i32⟩ : BufTy).Contents (Elt F)),
    nullary main_c_1 (constantI S_ 32 512#32),
    unary main_c_1 main_v10 (broadcastInDim S8192 ![] bcast_S_S8192 : (⟨S_, .i32⟩ : BufTy).Contents (Elt F) → (⟨S8192, .i32⟩ : BufTy).Contents (Elt F)),
    binary main_v0 main_v10 main_v11 (muli : (⟨S8192, .i32⟩ : BufTy).Contents (Elt F) → (⟨S8192, .i32⟩ : BufTy).Contents (Elt F) → (⟨S8192, .i32⟩ : BufTy).Contents (Elt F)),
    binary main_v11 main_v9 main_v12 (addi : (⟨S8192, .i32⟩ : BufTy).Contents (Elt F) → (⟨S8192, .i32⟩ : BufTy).Contents (Elt F) → (⟨S8192, .i32⟩ : BufTy).Contents (Elt F)),
    unary main_arg0 main_v13 (broadcastInDim S1024x8x1024 ![0, 2] bcast_S1024x1024_S1024x8x1024_0_2 : (⟨S1024x1024, .f32⟩ : BufTy).Contents (Elt F) → (⟨S1024x8x1024, .f32⟩ : BufTy).Contents (Elt F)),
    reshape main_v13 main_v14 rfl shapeCasts_S1024x8x1024_S8192x1024,
    nullary main_cst (constant S_ .f32 0x00000000#32),
    unary main_cst main_v15 (broadcastInDim S32768x1024 ![] bcast_S_S32768x1024 : (⟨S_, .f32⟩ : BufTy).Contents (Elt F) → (⟨S32768x1024, .f32⟩ : BufTy).Contents (Elt F)),
    nullary main_c_2 (constantI S_ 32 0#32),
    unary main_c_2 main_v16 (broadcastInDim S8192 ![] bcast_S_S8192 : (⟨S_, .i32⟩ : BufTy).Contents (Elt F) → (⟨S8192, .i32⟩ : BufTy).Contents (Elt F)),
    binary main_v12 main_v16 main_v17 (cmpi .slt : (⟨S8192, .i32⟩ : BufTy).Contents (Elt F) → (⟨S8192, .i32⟩ : BufTy).Contents (Elt F) → (⟨S8192, .i1⟩ : BufTy).Contents (Elt F)),
    nullary main_c_3 (constantI S_ 32 32768#32),
    unary main_c_3 main_v18 (broadcastInDim S8192 ![] bcast_S_S8192 : (⟨S_, .i32⟩ : BufTy).Contents (Elt F) → (⟨S8192, .i32⟩ : BufTy).Contents (Elt F)),
    binary main_v12 main_v18 main_v19 (addi : (⟨S8192, .i32⟩ : BufTy).Contents (Elt F) → (⟨S8192, .i32⟩ : BufTy).Contents (Elt F) → (⟨S8192, .i32⟩ : BufTy).Contents (Elt F)),
    ternary main_v17 main_v19 main_v12 main_v20 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v20 main_v21 (broadcastInDim S8192x1 ![0] bcast_S8192_S8192x1_0 : (⟨S8192, .i32⟩ : BufTy).Contents (Elt F) → (⟨S8192x1, .i32⟩ : BufTy).Contents (Elt F)),
    ternary main_v15 main_v21 main_v14 main_v22 ((fun x i u => Host.scatter scatter_S32768x1024_S8192x1_S8192x1024_1_0_0_1 (fun _ b => b) x i u) : (⟨S32768x1024, .f32⟩ : BufTy).Contents (Elt F) → (⟨S8192x1, .i32⟩ : BufTy).Contents (Elt F) → (⟨S8192x1024, .f32⟩ : BufTy).Contents (Elt F) → (⟨S32768x1024, .f32⟩ : BufTy).Contents (Elt F)),
    reshape main_v22 main_v23 rfl shapeCasts_S32768x1024_S64x512x1024,
    binary main_v23 main_arg3 main_v24 ((fun l r => Host.dotGeneral dot_S64x512x1024_S64x1024x1024_S64x512x1024_2_2_1_1_0_0 none l r) : (⟨S64x512x1024, .f32⟩ : BufTy).Contents (Elt F) → (⟨S64x1024x1024, .f32⟩ : BufTy).Contents (Elt F) → (⟨S64x512x1024, .f32⟩ : BufTy).Contents (Elt F)),
    unary main_v24 main_v25 ((extractStridedSlice S64x512x512 ![0, 0, 0] · slices_S64x512x1024_S64x512x512_0_0_0) : (⟨S64x512x1024, .f32⟩ : BufTy).Contents (Elt F) → (⟨S64x512x512, .f32⟩ : BufTy).Contents (Elt F)),
    unary main_v24 main_v26 ((extractStridedSlice S64x512x512 ![0, 0, 512] · slices_S64x512x1024_S64x512x512_0_0_512) : (⟨S64x512x1024, .f32⟩ : BufTy).Contents (Elt F) → (⟨S64x512x512, .f32⟩ : BufTy).Contents (Elt F)),
    -- the gate g · (1 / (1 + exp (−g))) (record main_call3)
    TRef.unary (.of main_v25 : TRef sig ⟨S64x512x512, .f32⟩) main_call3.v0 Host.negf,
    TRef.unary main_call3.v0 main_call3.v1 Host.exp,
    TRef.nullary main_call3.cst (constant S_ .f32 0x3F800000#32),
    TRef.unary main_call3.cst main_call3.v2 (broadcastInDim S64x512x512 ![] bcast_S_S64x512x512),
    TRef.binary main_call3.v2 main_call3.v1 main_call3.v3 addf,
    TRef.nullary main_call3.cst_0 (constant S_ .f32 0x3F800000#32),
    TRef.unary main_call3.cst_0 main_call3.v4 (broadcastInDim S64x512x512 ![] bcast_S_S64x512x512),
    TRef.binary main_call3.v4 main_call3.v3 main_call3.v5 Host.divf,
    TRef.binary (.of main_v25 : TRef sig ⟨S64x512x512, .f32⟩) main_call3.v5 main_call3.v6 mulf,
    binary main_v27 main_v26 main_v28 (mulf : (⟨S64x512x512, .f32⟩ : BufTy).Contents (Elt F) → (⟨S64x512x512, .f32⟩ : BufTy).Contents (Elt F) → (⟨S64x512x512, .f32⟩ : BufTy).Contents (Elt F)),
    binary main_v28 main_arg4 main_v29 ((fun l r => Host.dotGeneral dot_S64x512x512_S64x1024x512_S64x512x1024_2_2_1_1_0_0 none l r) : (⟨S64x512x512, .f32⟩ : BufTy).Contents (Elt F) → (⟨S64x1024x512, .f32⟩ : BufTy).Contents (Elt F) → (⟨S64x512x1024, .f32⟩ : BufTy).Contents (Elt F)),
    reshape main_v29 main_v30 rfl shapeCasts_S64x512x1024_S32768x1024,
    nullary main_c_4 (constantI S_ 32 0#32),
    unary main_c_4 main_v31 (broadcastInDim S8192 ![] bcast_S_S8192 : (⟨S_, .i32⟩ : BufTy).Contents (Elt F) → (⟨S8192, .i32⟩ : BufTy).Contents (Elt F)),
    binary main_v12 main_v31 main_v32 (cmpi .slt : (⟨S8192, .i32⟩ : BufTy).Contents (Elt F) → (⟨S8192, .i32⟩ : BufTy).Contents (Elt F) → (⟨S8192, .i1⟩ : BufTy).Contents (Elt F)),
    nullary main_c_5 (constantI S_ 32 32768#32),
    unary main_c_5 main_v33 (broadcastInDim S8192 ![] bcast_S_S8192 : (⟨S_, .i32⟩ : BufTy).Contents (Elt F) → (⟨S8192, .i32⟩ : BufTy).Contents (Elt F)),
    binary main_v12 main_v33 main_v34 (addi : (⟨S8192, .i32⟩ : BufTy).Contents (Elt F) → (⟨S8192, .i32⟩ : BufTy).Contents (Elt F) → (⟨S8192, .i32⟩ : BufTy).Contents (Elt F)),
    ternary main_v32 main_v34 main_v12 main_v35 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v35 main_v36 (broadcastInDim S8192x1 ![0] bcast_S8192_S8192x1_0 : (⟨S8192, .i32⟩ : BufTy).Contents (Elt F) → (⟨S8192x1, .i32⟩ : BufTy).Contents (Elt F)),
    binary main_v30 main_v36 main_v37 ((fun x i => Host.gather gather_S32768x1024_S8192x1_S8192x1024_1_0_n_n_0_1_11024 x i) : (⟨S32768x1024, .f32⟩ : BufTy).Contents (Elt F) → (⟨S8192x1, .i32⟩ : BufTy).Contents (Elt F) → (⟨S8192x1024, .f32⟩ : BufTy).Contents (Elt F)),
    reshape main_arg2 main_v38 rfl shapeCasts_S1024x8_S8192x1,
    unary main_v38 main_v39 (broadcastInDim S8192x1024 ![0, 1] bcast_S8192x1_S8192x1024_0_1 : (⟨S8192x1, .f32⟩ : BufTy).Contents (Elt F) → (⟨S8192x1024, .f32⟩ : BufTy).Contents (Elt F)),
    binary main_v37 main_v39 main_v40 (mulf : (⟨S8192x1024, .f32⟩ : BufTy).Contents (Elt F) → (⟨S8192x1024, .f32⟩ : BufTy).Contents (Elt F) → (⟨S8192x1024, .f32⟩ : BufTy).Contents (Elt F)),
    reshape main_v40 main_v41 rfl shapeCasts_S8192x1024_S1024x8x1024,
    nullary main_cst_6 (constant S_ .f32 0x00000000#32),
    binary main_v41 main_cst_6 main_v42 ((fun x v => Host.reduceAdd x v reducesTo_S1024x8x1024_S1024x1024_d1 h_S_) : (⟨S1024x8x1024, .f32⟩ : BufTy).Contents (Elt F) → (⟨S_, .f32⟩ : BufTy).Contents (Elt F) → (⟨S1024x1024, .f32⟩ : BufTy).Contents (Elt F)) ]

/-- @main is that straight line: with each callee written out at its call site and each record read at its fields, the
    two sides are the same chain of single steps, one after the other, by unfolding alone. -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes buffers of the TensorCore only. -/
theorem ops_sub : (ops : List (HloOp τ sig (Elt F))).Forall fun op => op.bufs ⊆ tcRefs τ sig :=
  ⟨reshape_bufs_sub .., unary_bufs_sub .., nullary_bufs_sub .., unary_bufs_sub .., unary_bufs_sub .., binary_bufs_sub ..,
    unary_bufs_sub .., nullary_bufs_sub .., unary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., reshape_bufs_sub .., nullary_bufs_sub .., nullary_bufs_sub ..,
    unary_bufs_sub .., binary_bufs_sub .., unary_bufs_sub .., unary_bufs_sub .., binary_bufs_sub .., binary_bufs_sub ..,
    nullary_bufs_sub .., binary_bufs_sub .., binary_bufs_sub .., nullary_bufs_sub .., unary_bufs_sub .., ternary_bufs_sub ..,
    reshape_bufs_sub .., nullary_bufs_sub .., unary_bufs_sub .., binary_bufs_sub .., nullary_bufs_sub .., unary_bufs_sub ..,
    binary_bufs_sub .., binary_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., ternary_bufs_sub .., reshape_bufs_sub .., binary_bufs_sub .., unary_bufs_sub ..,
    unary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., binary_bufs_sub ..,
    reshape_bufs_sub .., nullary_bufs_sub .., unary_bufs_sub .., binary_bufs_sub .., nullary_bufs_sub .., unary_bufs_sub ..,
    binary_bufs_sub .., ternary_bufs_sub .., unary_bufs_sub .., binary_bufs_sub .., reshape_bufs_sub .., unary_bufs_sub ..,
    binary_bufs_sub .., reshape_bufs_sub .., nullary_bufs_sub .., binary_bufs_sub ..⟩

attribute [local irreducible] Host.reduce Host.reduceWindow Host.gather Host.scatter in
set_option maxRecDepth 8192 in
set_option maxHeartbeats 1600000 in
/-- The result buffer after the line. Unrolling the line, each operation contributes its function applied to what its
    operand buffers held, so the result is the composition of the 88 functions along the data flow. Read in order, that
    composition is: the flat bucket position of every pair (`slotOf` of the routing indices, operations 1 to 44); the
    token rows scattered to those positions over zeros (`dispatch`, operations 45 to 58); the two batched contractions
    around the gated activation (`refmid`, operations 59 to 72); the gather at the same positions, the scaling by the
    routing weights and the sum over each token's 8 slots (`combine`, operations 73 to 88). The two sides apply the same
    operation to the same operands at every step; the window sum, the two gathers, the scatter and the and-reduction
    are compared by their arguments only, never opened. -/
theorem out_eq (V : Valuation τ sig (Elt F)) :
    after ops V (main_v42 : DevRef τ sig)
      = combine (slotOf (V (main_arg1 : DevRef τ sig)))
          (refmid (dispatch (V (main_arg0 : DevRef τ sig)) (V (main_arg1 : DevRef τ sig))) (V (main_arg3 : DevRef τ sig))
            (V (main_arg4 : DevRef τ sig)))
          (V (main_arg2 : DevRef τ sig)) := by
  after_results_simp
  rfl

/-! No operation of the line writes an argument buffer: each argument ends as it began. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

/-- On every device, for any float values, from any memory with zero counters: every weakly fair execution of @main
    terminates with the result at the shared routing functions around the reference's two contractions, applied to the
    arguments' launch contents, and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = combine (slotOf (m ((c.tc : Thread nD τ).loc main_arg1))) (refmid (dispatch (m ((c.tc : Thread nD τ).loc main_arg0)) (m ((c.tc : Thread nD τ).loc main_arg1))) (m ((c.tc : Thread nD τ).loc main_arg3)) (m ((c.tc : Thread nD τ).loc main_arg4))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v42).trans (out_eq _),
      (h c main_arg0).trans (arg0_eq _), (h c main_arg1).trans (arg1_eq _), (h c main_arg2).trans (arg2_eq _),
      (h c main_arg3).trans (arg3_eq _), (h c main_arg4).trans (arg4_eq _)⟩)
    (run_seq scopedRefs_eq scopedSems_eq defs main (fun _ => ops) main_eq (fun _ => ops_sub) m ρ)

end Cert.Hand.RefRun

end
-- ==== Proof.RefMid.lean ====
/-
  The reference's middle is the spec's mid, at the ideal instance.

  Entry (e, c, h) of the reference's result is the down contraction ∑ i : Fin 512, v (e, c, i) · dn (e, h, i), where
  v (e, c, i) = (g · (1 / (1 + exp (−g)))) · u with g and u columns i and 512 + i of the up contraction
  ∑ k : Fin 1024, xd (e, c, k) · gu (e, o, k). Each batched contraction over the operands' last axes is read at an
  index as a sum over the one contracted coordinate; the two slices are shifts by 0 and 512 on the last axis; and
  1 / (1 + exp (−g)) is the logistic function by definition. The spec's mid at (e, c, h) is the same double sum,
  written through expert e's slabs.
-/
import proofs.«101438_j11802570129921_1_alg».proof.Proof.Shared
import proofs.«101438_j11802570129921_1_alg».proof.Proof.Spec
import Idealize.ShloMosaic.PureOps.Ideal.Laws
import Idealize.ShloMosaic.Lib.ValueIdx
import Idealize.ShloMosaic.Lib.Pipeline.Value

noncomputable section

namespace Cert.Hand.RefMid

open Idealize.ShloMosaic Idealize.ShloMosaic.ValueIdx Idealize.SL.Sem
open Cert.Hand.Shared

/-- A batched contraction of [G, m, k] with [G, n, k] over the last axis of both, batch axis first: entry (g, a, b)
    is the sum over the contracted coordinate c of A (g, a, c) · B (g, b, c). The contraction index has one axis and
    is its coordinate; the operands' indices at (g, a, b) and c are (g, a, c) and (g, b, c), coordinate by coordinate. -/
theorem dot_last_apply {G m n k : Nat} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  simp only [Host.dotGeneral]
  rw [Ideal.dotGeneral_apply]
  rw [← Equiv.sum_comp (contrEquiv1 (⟨[2], [2], [1], [1], [0], [0], w⟩ : DotDims ⟨3, ![G, m, k]⟩ ⟨3, ![G, n, k]⟩ ⟨3, ![G, m, n]⟩) k rfl rfl).symm]
  refine Finset.sum_congr rfl fun c _ => ?_
  have hc := contrEquiv1_symm_val
    (⟨[2], [2], [1], [1], [0], [0], w⟩ : DotDims ⟨3, ![G, m, k]⟩ ⟨3, ![G, n, k]⟩ ⟨3, ![G, m, n]⟩) k rfl rfl c
  congr 2
  · funext ax; apply Fin.ext
    match ax with
    | ⟨0, _⟩ => simp [DotDims.lhsIdx]; rfl
    | ⟨1, _⟩ => simp [DotDims.lhsIdx]; rfl
    | ⟨2, _⟩ => simp [DotDims.lhsIdx]; exact hc
  · funext ax; apply Fin.ext
    match ax with
    | ⟨0, _⟩ => simp [DotDims.rhsIdx]; rfl
    | ⟨1, _⟩ => simp [DotDims.rhsIdx]; rfl
    | ⟨2, _⟩ => simp [DotDims.rhsIdx]; exact hc

/-- The word 0x3F800000 is the number one. -/
theorem one_bits : Ideal.ofBits .f32 0x3F800000#32 = 1 := by
  simp [Ideal.ofBits, Ideal.ieee, -EReal.coe_mul]; norm_num

section
open Cert.ReferenceIdeal Cert.ReferenceIdeal.Facts₀ Cert.ReferenceIdeal.Facts

/-- The up contraction at (e, c, o) is the spec's projection of expert e's slabs: ∑ k, xd (e, c, k) · gu (e, o, k). -/
theorem up_apply (xd : C Ideal S64x512x1024 .f32) (gu : C Ideal S64x1024x1024 .f32)
    (e : Fin 64) (c : Fin 512) (o : Fin 1024) :
    Host.dotGeneral (F := Ideal) (φ₁ := .f32) (φ₂ := .f32) dot_S64x512x1024_S64x1024x1024_S64x512x1024_2_2_1_1_0_0 none xd gu (ix3 e c o)
      = Spec.proj (Spec.slab xd e) (Spec.slab gu e) c o :=
  (dot_last_apply (G := 64) (m := 512) (n := 1024) (k := 1024)
    dot_S64x512x1024_S64x1024x1024_S64x512x1024_2_2_1_1_0_0_wf none xd gu e c o).trans rfl

/-- The down contraction at (e, c, h): ∑ i, v (e, c, i) · dn (e, h, i). -/
theorem down_apply (v : C Ideal S64x512x512 .f32) (dn : C Ideal S64x1024x512 .f32)
    (e : Fin 64) (c : Fin 512) (h : Fin 1024) :
    Host.dotGeneral (F := Ideal) (φ₁ := .f32) (φ₂ := .f32) dot_S64x512x512_S64x1024x512_S64x512x1024_2_2_1_1_0_0 none v dn (ix3 e c h)
      = ∑ i : Fin 512, v (ix3 e c i) * dn (ix3 e h i) :=
  dot_last_apply (G := 64) (m := 512) (n := 1024) (k := 512)
    dot_S64x512x512_S64x1024x512_S64x512x1024_2_2_1_1_0_0_wf none v dn e c h

/-- The slice at offset 0 on the last axis reads column i. -/
theorem slice_lo (v : C Ideal S64x512x1024 .f32) (e : Fin 64) (c : Fin 512) (i : Fin 512) :
    extractStridedSlice S64x512x512 ![0, 0, 0] v slices_S64x512x1024_S64x512x512_0_0_0 (ix3 e c i)
      = v (ix3 e c (Spec.lo i)) := by
  refine extractStridedSlice_apply _ v _ _ _ fun a => ?_
  match a with
  | ⟨0, _⟩ => exact (Nat.zero_add _).symm
  | ⟨1, _⟩ => exact (Nat.zero_add _).symm
  | ⟨2, _⟩ => exact (Nat.zero_add _).symm

/-- The slice at offset 512 on the last axis reads column 512 + i. -/
theorem slice_hi (v : C Ideal S64x512x1024 .f32) (e : Fin 64) (c : Fin 512) (i : Fin 512) :
    extractStridedSlice S64x512x512 ![0, 0, 512] v slices_S64x512x1024_S64x512x512_0_0_512 (ix3 e c i)
      = v (ix3 e c (Spec.hi i)) := by
  refine extractStridedSlice_apply _ v _ _ _ fun a => ?_
  match a with
  | ⟨0, _⟩ => exact (Nat.zero_add _).symm
  | ⟨1, _⟩ => exact (Nat.zero_add _).symm
  | ⟨2, _⟩ => rfl

/-- The gated product at (e, c, i) of an array v of projected columns: with g = v (e, c, i) and u = v (e, c, 512 + i),
    (g · (1 / (1 + exp (−g)))) · u is (g · logistic g) · u, the quotient being the logistic function's definition. -/
theorem gate_apply (v : C Ideal S64x512x1024 .f32) (e : Fin 64) (c : Fin 512) (i : Fin 512) :
    (extractStridedSlice S64x512x512 ![0, 0, 0] v slices_S64x512x1024_S64x512x512_0_0_0 (ix3 e c i)
        * Ideal.div (Ideal.ofBits .f32 0x3F800000#32)
            (Ideal.ofBits .f32 0x3F800000#32
              + Ideal.exp (-(extractStridedSlice S64x512x512 ![0, 0, 0] v slices_S64x512x1024_S64x512x512_0_0_0 (ix3 e c i)))))
        * extractStridedSlice S64x512x512 ![0, 0, 512] v slices_S64x512x1024_S64x512x512_0_0_512 (ix3 e c i)
      = (v (ix3 e c (Spec.lo i)) * Ideal.logistic (v (ix3 e c (Spec.lo i)))) * v (ix3 e c (Spec.hi i)) := by
  rw [slice_lo, slice_hi, one_bits]
  rfl

/-- The reference's middle is the spec's: entry (e, c, h) of both is
    ∑ i : Fin 512, ((g · logistic g) · u) · dn (e, h, i), g and u the up contraction's columns i and 512 + i. -/
theorem refmid_eq (xd : Cert.Hand.Shared.C Ideal Cert.ReferenceIdeal.S64x512x1024 .f32)
    (gu : Cert.Hand.Shared.C Ideal Cert.ReferenceIdeal.S64x1024x1024 .f32)
    (dn : Cert.Hand.Shared.C Ideal Cert.ReferenceIdeal.S64x1024x512 .f32) :
    Cert.Hand.Shared.refmid (F := Ideal) xd gu dn = Cert.Hand.Spec.mid xd gu dn := by
  funext j
  obtain ⟨e, c, h, rfl⟩ : ∃ e c h, j = ix3 e c h := ⟨j 0, j 1, j 2, eq_ix3 j⟩
  simp only [refmid]
  rw [down_apply]
  show _ = ∑ i : Fin 512, Spec.gated (Spec.slab xd e) (Spec.slab gu e) c i * dn (ix3 e h i)
  refine Finset.sum_congr rfl fun i _ => ?_
  congr 1
  refine (gate_apply _ e c i).trans ?_
  rw [up_apply, up_apply]
  rfl

end

end Cert.Hand.RefMid

end
-- ==== Proof.lean ====
/-
  A mixture-of-experts layer against its jnp reference, over the extended reals.

  Both programs route the 8192 (token, slot) pairs to 64 expert buckets of 512 rows with the same host operations
  (a one-hot of the expert index, a running count, the count read at the pair's own expert, clamped, as the row
  inside the bucket), scatter the token rows into the buckets, and afterwards gather each pair's result row back,
  scale it by its routing weight and sum each token's 8 slots. In between, the kernel runs one grid point per expert:
  the bucket's rows against the expert's transposed gate/up weights, the first 512 columns gated by
  `g · logistic g` and multiplied by the last 512, the product against the transposed down weights; the reference
  does the same for all experts at once as two batched contractions, spelling the gate as `g · (1 / (1 + exp (−g)))`.

  On the extended reals a change of float format is the identity, `logistic g` is by definition `1 / (1 + exp (−g))`,
  and both contractions are plain sums over the contracted index, so the two middles are ONE function `mid` of the
  bucket array and the weights (Spec.lean); the dispatch and the combine are carried as the same opaque functions on
  both sides (Shared.lean). No law that needs finiteness is used: the precondition is never opened.

  The kernel program's run is read off its frame: each expert's block is the spec's block function of the three slabs
  (KPay.lean), the 64 blocks tile the output array (KBlocks.lean), the host operations around the region are the
  shared functions (KHost.lean, KRun.lean). The reference's run is its list of host operations read back
  (RefRun.lean), its middle the same `mid` (RefMid.lean).
-/
import proofs.«101438_j11802570129921_1_alg».proof.Defs
import proofs.«101438_j11802570129921_1_alg».proof.Proof.Gen.Kernel
import proofs.«101438_j11802570129921_1_alg».proof.Proof.Gen.Kernel.Frame
import proofs.«101438_j11802570129921_1_alg».proof.Proof.Gen.KernelIdeal
import proofs.«101438_j11802570129921_1_alg».proof.Proof.Gen.KernelIdeal.Frame
import proofs.«101438_j11802570129921_1_alg».proof.Proof.Gen.ReferenceIdeal
import proofs.«101438_j11802570129921_1_alg».proof.Proof.Gen.Pre_finite_inputs
import proofs.«101438_j11802570129921_1_alg».proof.Proof.KRun
import proofs.«101438_j11802570129921_1_alg».proof.Proof.RefRun
import proofs.«101438_j11802570129921_1_alg».proof.Proof.RefMid
import Idealize.ShloMosaic.Adequacy
import Idealize.ShloMosaic.Init

noncomputable section

namespace Cert.Proof

open Idealize.ShloMosaic Idealize.ShloMosaic.TcCoe Idealize.SL.Sem

/-- The word-level kernel program runs and leaves its inputs unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and leaves its inputs unchanged: its run, the result forgotten. -/
theorem frame_ri : Cert.frame_ReferenceIdeal := fun m ρ _ =>
  (θ_run Cert.ReferenceIdeal.defs _ _).mono (fun _ h c => (h c).2) (Cert.Hand.RefRun.run (F := Ideal) m ρ)

/-- The ideal pass rewrote no operation. -/
theorem preserves : Cert.preserves_Kernel_KernelIdeal := trivial

/-- From inputs that agree, both programs end at `combine` of the same positions, the same routing weights and the
    per-expert gated MLP of the same buckets and weights: the kernel's `mid` by its run, the reference's middle equal
    to `mid`. -/
theorem algebraic : Cert.algebraic_KernelIdeal_ReferenceIdeal := by
  intro m ρ m' ρ' _ hagree
  refine ⟨_, Cert.Hand.KRun.run m ρ, ?_⟩
  refine (θ_run Cert.ReferenceIdeal.defs _ _).mono (fun _ h c => ⟨(h c).1.trans ?_, (h c).2⟩)
    (Cert.Hand.RefRun.run (F := Ideal) m' ρ')
  obtain ⟨h0, h1, h2, h3, h4⟩ := hagree c
  rw [h0, h1, h2, h3, h4, Cert.Hand.RefMid.refmid_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
